-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x128 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S64x128 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S10000x64 : Shape := ⟨2, ![10000, 64]⟩
abbrev S200x10000 : Shape := ⟨2, ![200, 10000]⟩
abbrev S200x64 : Shape := ⟨2, ![200, 64]⟩
abbrev S200x128 : Shape := ⟨2, ![200, 128]⟩
abbrev S1x128 : Shape := ⟨2, ![1, 128]⟩
abbrev S128x64 : Shape := ⟨2, ![128, 64]⟩
abbrev S1x64 : Shape := ⟨2, ![1, 64]⟩
abbrev S200 : Shape := ⟨1, ![200]⟩
abbrev S200x1 : Shape := ⟨2, ![200, 1]⟩

abbrev nBuf : Space → Nat
  | .hbm => 7
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S10000x64, .f32⟩
  | .local _ .vmem, ⟨0, _⟩ => ⟨S10000x128, .f32⟩
  | .local _ .vmem, ⟨1, _⟩ => ⟨S200x10000, .f32⟩
  | .local _ .vmem, ⟨2, _⟩ => ⟨S200x10000, .f32⟩
  | .local _ .vmem, ⟨3, _⟩ => ⟨S128x128, .f32⟩
  | .local _ .vmem, ⟨4, _⟩ => ⟨S128, .f32⟩
  | .local _ .vmem, ⟨5, _⟩ => ⟨S64x128, .f32⟩
  | .local _ .vmem, ⟨6, _⟩ => ⟨S64, .f32⟩
  | .local _ .vmem, ⟨7, _⟩ => ⟨S200x64, .f32⟩
  | .local _ .vmem, ⟨8, _⟩ => ⟨S200x64, .f32⟩
  | .local _ .vmem, ⟨9, _⟩ => ⟨S10000x128, .f32⟩
  | .local _ .vmem, ⟨10, _⟩ => ⟨S10000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c200_i32 : BitVec 32 := 200#32
  let v23 : BitVec 32 := Scalar.muli arg1 c200_i32
  let v24 : Index := Scalar.indexCast v23
  let c0_13 : Index := 0#32
  ![v24.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S200x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  inb_S128_S128_0 : ∀ a, (![0] : Fin 1 → Nat) a + S128.size a ≤ S128.size a
  h_S128 : 0 < S128.numel
  shapeCasts_S128_S1x128 : S128.ShapeCasts S1x128
  broadcasts_S1x128_S200x128 : S1x128.Broadcasts S200x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  h_S200x64 : 0 < S200x64.numel
  shapeCasts_S200x64_S200x64 : S200x64.ShapeCasts S200x64
  inb_S10000x64_S10000x64_0_0 : ∀ a, (![0, 0] : Fin 2 → Nat) a + S10000x64.size a ≤ S10000x64.size a
  h_S10000x64 : 0 < S10000x64.numel
  inb_S64_S64_0 : ∀ a, (![0] : Fin 1 → Nat) a + S64.size a ≤ S64.size a
  h_S64 : 0 < S64.numel
  shapeCasts_S64_S1x64 : S64.ShapeCasts S1x64
  broadcasts_S1x64_S200x64 : S1x64.Broadcasts S200x64
  reduces_S200x64_S200 : S200x64.Reduces [1] S200
  shapeCasts_S200_S200x1 : S200.ShapeCasts S200x1
  broadcasts_S200x1_S200x64 : S200x1.Broadcasts S200x64
  inb_S200x64_S200x64_0_0 : ∀ a, (![0, 0] : Fin 2 → Nat) a + S200x64.size a ≤ S200x64.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S200x128_S128x64_S200x64_1_0_0_1_n_n_wf : DotDims.WF S200x128 S128x64 S200x64 [1] [0] [0] [1] [] []
  dot_S200x10000_S10000x64_S200x64_1_0_0_1_n_n_wf : DotDims.WF S200x10000 S10000x64 S200x64 [1] [0] [0] [1] [] []
  hrank0 : 0 < grid0.rank
  k0_off1_inb : ∀ i : grid0.Coords, ∀ (k0_h2 : k0_cond2 i = 1#1), ∀ a, (k0_off1 i) a + S200x64.size a ≤ S10000x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x64.size a ≤ S10000x64.size a
  hwx0_6 : ∀ i : grid0.Coords, EltTy.bits .f32 = 32 ∨ (Rect.block (s := S10000x64) S200x64.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x64_S200x64_1_0_0_1_n_n : DotDims S200x128 S128x64 S200x64 where
  lhsContracting := [1]
  rhsContracting := [0]
  lhsNonContracting := [0]
  rhsNonContracting := [1]
  lhsBatch := []
  rhsBatch := []
  wf := dot_S200x128_S128x64_S200x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S200x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x128 : Shape := ⟨2, ![1, 128]⟩
abbrev S_ : Shape := ⟨0, ![]⟩
abbrev S128x64 : Shape := ⟨2, ![128, 64]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 36
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S10000x128, .f32⟩
  | .hbm, ⟨7, _⟩ => ⟨S128x128, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S128x64, .f32⟩
  | .hbm, ⟨17, _⟩ => ⟨S10000x64, .f32⟩
  | .hbm, ⟨18, _⟩ => ⟨S1x64, .f32⟩
  | .hbm, ⟨19, _⟩ => ⟨S10000x64, .f32⟩
  | .hbm, ⟨20, _⟩ => ⟨S10000x64, .f32⟩
  | .hbm, ⟨21, _⟩ => ⟨S_, .f32⟩
  | .hbm, ⟨22, _⟩ => ⟨S10000, .f32⟩
  | .hbm, ⟨23, _⟩ => ⟨S_, .f32⟩
  | .hbm, ⟨24, _⟩ => ⟨S10000, .f32⟩
  | .hbm, ⟨25, _⟩ => ⟨S10000, .f32⟩
  | .hbm, ⟨26, _⟩ => ⟨S10000x1, .f32⟩
  | .hbm, ⟨27, _⟩ => ⟨S10000x64, .f32⟩
  | .hbm, ⟨28, _⟩ => ⟨S10000x64, .f32⟩
  | .hbm, ⟨29, _⟩ => ⟨S10000x64, .f32⟩
  | .hbm, ⟨30, _⟩ => ⟨S_, .f32⟩
  | .hbm, ⟨31, _⟩ => ⟨S10000, .f32⟩
  | .hbm, ⟨32, _⟩ => ⟨S10000x1, .f32⟩
  | .hbm, ⟨33, _⟩ => ⟨S10000x1, .f32⟩
  | .hbm, ⟨34, _⟩ => ⟨S10000x64, .f32⟩
  | .hbm, ⟨35, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call1_cst : Ref sig .tc := ⟨.hbm, 21, rfl⟩
abbrev main_call1_v0 : Ref sig .tc := ⟨.hbm, 22, rfl⟩
abbrev main_call1_cst_0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_cst_1 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_v13 : Ref sig .tc := ⟨.hbm, 35, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  transposes_S64x128_S128x64_1_0 : S64x128.Transposes [1, 0] S128x64
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

class Facts : Prop extends Facts₀ where

variable [Facts]
-- ==== Proof.K.Conds.lean ====
/-
  The kernel body's three branch conditions as functions of the grid point, each decided over the 2 × 50 grid in closed
  form: the first branch (compute T = X · W1ᵀ into the first scratch) is taken at point 0 only; the second (one block
  of 200 rows of U into the second scratch) at the 50 points of grid row 0; the third (one block of the output) at the
  50 points of grid row 1. The output window is idle exactly where the third branch is not taken, and its block is
  written back exactly at the points of grid row 1. The second branch stores at row offset 200 · (the point's column).
-/
import proofs.«148394_g17386027614455_cont_7to1_900_12_alg».proof.Proof.Gen.Kernel.Frame
import proofs.«148394_g17386027614455_cont_7to1_900_12_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first branch's condition: both grid coordinates are zero. -/
abbrev condT (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem condT_iff : ∀ t : Fin cfg0.N, condT (grid0.coords t) ↔ t.val = 0 :=
  (by decide +kernel : ∀ t : Fin grid0.N, condT (grid0.coords t) ↔ t.val = 0)

/-- The second branch's condition: grid row 0. -/
abbrev condU (i : grid0.Coords) : Prop := k0_cond2 i = 1#1
theorem condU_iff : ∀ t : Fin cfg0.N, condU (grid0.coords t) ↔ t.val < 50 :=
  (by decide +kernel : ∀ t : Fin grid0.N, condU (grid0.coords t) ↔ t.val < 50)

/-- The third branch's condition: grid row 1. -/
abbrev condO (i : grid0.Coords) : Prop := k0_cond3 i = 1#1
theorem condO_iff : ∀ t : Fin cfg0.N, condO (grid0.coords t) ↔ 50 ≤ t.val :=
  (by decide +kernel : ∀ t : Fin grid0.N, condO (grid0.coords t) ↔ 50 ≤ t.val)

/-- The input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

/-- The output window is idle on grid row 0 and live on grid row 1. -/
theorem idle6_lo : ∀ t : Fin cfg0.N, t.val < 50 → cfg0.idle 6 (grid0.coords t) = true :=
  (by decide +kernel : ∀ t : Fin grid0.N, t.val < 50 → cfg0.idle 6 (grid0.coords t) = true)
theorem idle6_hi : ∀ t : Fin cfg0.N, 50 ≤ t.val → cfg0.idle 6 (grid0.coords t) = false :=
  (by decide +kernel : ∀ t : Fin grid0.N, 50 ≤ t.val → cfg0.idle 6 (grid0.coords t) = false)

/-- The output's block is written back at every point of grid row 1 and at no point of grid row 0. -/
theorem flush6_lo : ∀ t : Fin cfg0.N, t.val < 50 → (cfg0.win 6).flush t = false :=
  (by decide +kernel : ∀ t : Fin grid0.N, t.val < 50 → win0_6.flush t = false)
theorem flush6_hi : ∀ t : Fin cfg0.N, 50 ≤ t.val → (cfg0.win 6).flush t = true :=
  (by decide +kernel : ∀ t : Fin grid0.N, 50 ≤ t.val → win0_6.flush t = true)

/-- On grid row 0 the second branch's slice starts at row 200 · t. -/
theorem off_row : ∀ t : Fin cfg0.N, t.val < 50 → k0_off1 (grid0.coords t) 0 = 200 * t.val :=
  (by decide +kernel : ∀ t : Fin grid0.N, t.val < 50 → k0_off1 (grid0.coords t) 0 = 200 * t.val)
theorem off_col : ∀ t : Fin cfg0.N, k0_off1 (grid0.coords t) 1 = 0 :=
  (by decide +kernel : ∀ t : Fin grid0.N, k0_off1 (grid0.coords t) 1 = 0)

/-- Each window's current staging memref at point `t`, as the pipeline passes it to the body, and its wholeness. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S200x64 .f32 := win0_6.stage (cfg0.slots t 6)
abbrev hs6 (t : Fin cfg0.N) : (ms6 t).IsWhole := hstage0_6 ((cfg0.slots t 6).cast nbuf0_6)
/-- The two scratch operands: whole scoped buffers of the kernel's own. -/
abbrev scT : Memref sig .tc .vmem S10000x128 .f32 := Memref.whole cc0_scratch0
abbrev scU : Memref sig .tc .vmem S10000x64 .f32 := Memref.whole cc0_scratch1

/-- The region's invariant at entry, with the two scratch buffers as memrefs owned at some contents. -/
theorem PhiA_eq (c : Dev nD) :
    (Pipeline.ΦA spec0 c : sProp 𝕄)
      = iprop(iprop((∃ d, owns (c : Thread nD τ) scT fullShare d) ∗ (∃ d, owns (c : Thread nD τ) scU fullShare d)) ∗ (∃ r, prngReg c r)) := by
  unfold Pipeline.ΦA; rw [scopedRest0_eq]; simp only [scT, scU, owns_whole]; try rfl

end Cert.Kernel.Body

end
-- ==== Proof.K.RunA.lean ====
/-
  The kernel body at the grid's first point (the first and second branches taken): on whole staging memrefs holding the
  point's input blocks and both scratch buffers at some contents, the body loads X and W1 and stores T = X · W1ᵀ over the
  whole first scratch, then loads the adjacency block, T back, b1 and W2 and stores the first slice of 200 rows into the
  second scratch; every other buffer is returned as found. What each scratch then holds is given as the list of pieces the
  body's stores left there (the first scratch's one piece covers it; the second's is written over what it held).
-/
import proofs.«148394_g17386027614455_cont_7to1_900_12_alg».proof.Proof.K.Conds

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The run at the first point, with the pieces left in the two scratch buffers. -/
noncomputable def runA (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S128 .f32) (harg5 : arg5.IsWhole) (arg6 : Memref sig .tc .vmem S64x128 .f32) (harg6 : arg6.IsWhole) (arg7 : Memref sig .tc .vmem S64 .f32) (harg7 : arg7.IsWhole) (arg8 : Memref sig .tc .vmem S200x64 .f32) (harg8 : arg8.IsWhole) (arg9 : Memref sig .tc .vmem S10000x128 .f32) (harg9 : arg9.IsWhole) (arg10 : Memref sig .tc .vmem S10000x64 .f32) (harg10 : arg10.IsWhole) (hc0 : condT i) (hc1 : condU i) (hc2 : ¬condO i)
    (x0 : Vec F S10000x128 .f32) (x1 : Vec F S200x10000 .f32) (x2 : Vec F S128x128 .f32) (x3 : Vec F S128 .f32) (x4 : Vec F S64x128 .f32) (x5 : Vec F S64 .f32) (x6 : Vec F S200x64 .f32) (xs1 : Vec F S10000x64 .f32) :
    { LS : List (View.Piece (Elt F) S10000x128 .f32) × List (View.Piece (Elt F) S10000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f LS.1) ∗ (∃ f, ⌜arg10.view.read (Elt F) f = xs1⌝ ∗ arg10.view.loc (c : Thread nD τ) ↦[arg10.view.set]{fullShare} arg10.view.writes (Elt F) f LS.2)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨(?_, ?_), fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; isplitr; · ipureintro; exact harg10.read_unread _
    iexact HS1

end Cert.Kernel.Body

end
-- ==== Proof.K.RunB.lean ====
/-
  The kernel body at a point of grid row 0 other than the first (only the second branch taken): on whole staging memrefs
  holding the point's input blocks, the first scratch at T and the second at some contents, the body loads the adjacency
  block, T, b1 and W2, stores one slice of 200 rows into the second scratch, and returns every other buffer as it found
  it (the output's staging buffer included: nothing is stored there). What the second scratch then holds is given as the
  list of pieces the body's stores left there, written over what it held.
-/
import proofs.«148394_g17386027614455_cont_7to1_900_12_alg».proof.Proof.K.Conds

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The run at a later point of grid row 0, with the pieces left in the second scratch. -/
noncomputable def runB (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S128 .f32) (harg5 : arg5.IsWhole) (arg6 : Memref sig .tc .vmem S64x128 .f32) (harg6 : arg6.IsWhole) (arg7 : Memref sig .tc .vmem S64 .f32) (harg7 : arg7.IsWhole) (arg8 : Memref sig .tc .vmem S200x64 .f32) (harg8 : arg8.IsWhole) (arg9 : Memref sig .tc .vmem S10000x128 .f32) (harg9 : arg9.IsWhole) (arg10 : Memref sig .tc .vmem S10000x64 .f32) (harg10 : arg10.IsWhole) (hc0 : ¬condT i) (hc1 : condU i) (hc2 : ¬condO i)
    (x0 : Vec F S10000x128 .f32) (x1 : Vec F S200x10000 .f32) (x2 : Vec F S128x128 .f32) (x3 : Vec F S128 .f32) (x4 : Vec F S64x128 .f32) (x5 : Vec F S64 .f32) (x6 : Vec F S200x64 .f32) (xs0 : Vec F S10000x128 .f32) (xs1 : Vec F S10000x64 .f32) :
    { L10 : List (View.Piece (Elt F) S10000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ (∃ f, ⌜arg10.view.read (Elt F) f = xs1⌝ ∗ arg10.view.loc (c : Thread nD τ) ↦[arg10.view.set]{fullShare} arg10.view.writes (Elt F) f L10)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    iexists _; isplitr; · ipureintro; exact harg10.read_unread _
    iexact HS1

end Cert.Kernel.Body

end
-- ==== Proof.K.RunC.lean ====
/-
  The kernel body at a point of grid row 1 (only the third branch taken): on whole staging memrefs holding the point's
  input blocks, the first scratch at T and the second at U, the body loads the adjacency block, U and b2, stores one
  block of the output, and returns every other buffer as it found it. What the output's staging buffer then holds is
  given as the list of pieces the body's stores left there.
-/
import proofs.«148394_g17386027614455_cont_7to1_900_12_alg».proof.Proof.K.Conds

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The run at a point of grid row 1, with the pieces left in the output's staging buffer. -/
noncomputable def runC (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S128 .f32) (harg5 : arg5.IsWhole) (arg6 : Memref sig .tc .vmem S64x128 .f32) (harg6 : arg6.IsWhole) (arg7 : Memref sig .tc .vmem S64 .f32) (harg7 : arg7.IsWhole) (arg8 : Memref sig .tc .vmem S200x64 .f32) (harg8 : arg8.IsWhole) (arg9 : Memref sig .tc .vmem S10000x128 .f32) (harg9 : arg9.IsWhole) (arg10 : Memref sig .tc .vmem S10000x64 .f32) (harg10 : arg10.IsWhole) (hc0 : ¬condT i) (hc1 : ¬condU i) (hc2 : condO i)
    (x0 : Vec F S10000x128 .f32) (x1 : Vec F S200x10000 .f32) (x2 : Vec F S128x128 .f32) (x3 : Vec F S128 .f32) (x4 : Vec F S64x128 .f32) (x5 : Vec F S64 .f32) (xs0 : Vec F S10000x128 .f32) (xs1 : Vec F S10000x64 .f32) :
    { L8 : List (View.Piece (Elt F) S200x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L8) ∗ owns (c : Thread nD τ) arg9 fullShare xs0 ∗ owns (c : Thread nD τ) arg10 fullShare xs1) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    iexists _; isplitr; · ipureintro; exact harg10.read_unread _
    iexact HS1

end Cert.Kernel.Body

end
-- ==== Proof.K.Pieces.lean ====
/-
  What the kernel body's stores are, case by case. At the first point: one store of T = (first stored value of X and W1)
  over the whole first scratch, then one store of the second stored value (of the adjacency block, T read back, b1, W2)
  through the 200-row slice at the point's row offset of the second scratch. At a later point of grid row 0: that second
  store alone, T being what the first scratch holds. At a point of grid row 1: one store of the third stored value (of
  the adjacency block, the second scratch's contents, b2) over the whole output block. Each run restated over these
  explicit stores.
-/
import proofs.«148394_g17386027614455_cont_7to1_900_12_alg».proof.Proof.K.RunA
import proofs.«148394_g17386027614455_cont_7to1_900_12_alg».proof.Proof.K.RunB
import proofs.«148394_g17386027614455_cont_7to1_900_12_alg».proof.Proof.K.RunC
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz1 : (![0] : Fin 1 → ℕ) = fun _ => 0 := by funext a; fin_cases a; rfl

/-- The store at a point of grid row 1. -/
theorem runC_pieces (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S128 .f32) (harg5 : arg5.IsWhole) (arg6 : Memref sig .tc .vmem S64x128 .f32) (harg6 : arg6.IsWhole) (arg7 : Memref sig .tc .vmem S64 .f32) (harg7 : arg7.IsWhole) (arg8 : Memref sig .tc .vmem S200x64 .f32) (harg8 : arg8.IsWhole) (arg9 : Memref sig .tc .vmem S10000x128 .f32) (harg9 : arg9.IsWhole) (arg10 : Memref sig .tc .vmem S10000x64 .f32) (harg10 : arg10.IsWhole) (hc0 : ¬condT i) (hc1 : ¬condU i) (hc2 : condO i)
    (x0 : Vec F S10000x128 .f32) (x1 : Vec F S200x10000 .f32) (x2 : Vec F S128x128 .f32) (x3 : Vec F S128 .f32) (x4 : Vec F S64x128 .f32) (x5 : Vec F S64 .f32) (xs0 : Vec F S10000x128 .f32) (xs1 : Vec F S10000x64 .f32) :
    (runC c i arg2 harg2 arg3 harg3 arg4 harg4 arg5 harg5 arg6 harg6 arg7 harg7 arg8 harg8 arg9 harg9 arg10 harg10 hc0 hc1 hc2 x0 x1 x2 x3 x4 x5 xs0 xs1).1
      = [⟨Rect.unit (s := S200x64) ![0, 0] S200x64.size inb_S200x64_S200x64_0_0, k0_pay3 x1 xs1 x5⟩] := by
  unfold runC
  dsimp only
  sl_unfold_run_names
  simp only [View.readAt_eq_ld, harg3.read_unread, harg10.read_unread, harg7.read_unread, View.ld_unit_zero (S := S200x10000) hz2, View.ld_unit_zero (S := S10000x64) hz2, View.ld_unit_zero (S := S64) hz1]

/-- The store at a later point of grid row 0. -/
theorem runB_pieces (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S128 .f32) (harg5 : arg5.IsWhole) (arg6 : Memref sig .tc .vmem S64x128 .f32) (harg6 : arg6.IsWhole) (arg7 : Memref sig .tc .vmem S64 .f32) (harg7 : arg7.IsWhole) (arg8 : Memref sig .tc .vmem S200x64 .f32) (harg8 : arg8.IsWhole) (arg9 : Memref sig .tc .vmem S10000x128 .f32) (harg9 : arg9.IsWhole) (arg10 : Memref sig .tc .vmem S10000x64 .f32) (harg10 : arg10.IsWhole) (hc0 : ¬condT i) (hc1 : condU i) (hc2 : ¬condO i)
    (x0 : Vec F S10000x128 .f32) (x1 : Vec F S200x10000 .f32) (x2 : Vec F S128x128 .f32) (x3 : Vec F S128 .f32) (x4 : Vec F S64x128 .f32) (x5 : Vec F S64 .f32) (x6 : Vec F S200x64 .f32) (xs0 : Vec F S10000x128 .f32) (xs1 : Vec F S10000x64 .f32) :
    (runB c i arg2 harg2 arg3 harg3 arg4 harg4 arg5 harg5 arg6 harg6 arg7 harg7 arg8 harg8 arg9 harg9 arg10 harg10 hc0 hc1 hc2 x0 x1 x2 x3 x4 x5 x6 xs0 xs1).1
      = [⟨Rect.unit (s := S10000x64) (k0_off1 i) S200x64.size (k0_off1_inb i hc1), k0_pay2 x1 xs0 x3 x4⟩] := by
  unfold runB
  dsimp only
  sl_unfold_run_names
  simp only [View.readAt_eq_ld, harg3.read_unread, harg9.read_unread, harg5.read_unread, harg6.read_unread, View.ld_unit_zero (S := S200x10000) hz2, View.ld_unit_zero (S := S10000x128) hz2, View.ld_unit_zero (S := S64x128) hz2, View.ld_unit_zero (S := S128) hz1]

/-- The two stores at the first point. -/
theorem runA_pieces (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S128 .f32) (harg5 : arg5.IsWhole) (arg6 : Memref sig .tc .vmem S64x128 .f32) (harg6 : arg6.IsWhole) (arg7 : Memref sig .tc .vmem S64 .f32) (harg7 : arg7.IsWhole) (arg8 : Memref sig .tc .vmem S200x64 .f32) (harg8 : arg8.IsWhole) (arg9 : Memref sig .tc .vmem S10000x128 .f32) (harg9 : arg9.IsWhole) (arg10 : Memref sig .tc .vmem S10000x64 .f32) (harg10 : arg10.IsWhole) (hc0 : condT i) (hc1 : condU i) (hc2 : ¬condO i)
    (x0 : Vec F S10000x128 .f32) (x1 : Vec F S200x10000 .f32) (x2 : Vec F S128x128 .f32) (x3 : Vec F S128 .f32) (x4 : Vec F S64x128 .f32) (x5 : Vec F S64 .f32) (x6 : Vec F S200x64 .f32) (xs1 : Vec F S10000x64 .f32) :
    (runA c i arg2 harg2 arg3 harg3 arg4 harg4 arg5 harg5 arg6 harg6 arg7 harg7 arg8 harg8 arg9 harg9 arg10 harg10 hc0 hc1 hc2 x0 x1 x2 x3 x4 x5 x6 xs1).1
      = ([⟨Rect.unit (s := S10000x128) ![0, 0] S10000x128.size inb_S10000x128_S10000x128_0_0, k0_pay1 x0 x2⟩],
         [⟨Rect.unit (s := S10000x64) (k0_off1 i) S200x64.size (k0_off1_inb i hc1), k0_pay2 x1 (k0_pay1 x0 x2) x3 x4⟩]) := by
  unfold runA
  dsimp only
  sl_unfold_run_names
  simp only [View.readAt_eq_ld, harg2.read_unread, harg4.read_unread, harg3.read_unread, harg5.read_unread, harg6.read_unread, View.ld_unit_zero (S := S200x10000) hz2, View.ld_unit_zero (S := S10000x128) hz2, View.ld_unit_zero (S := S128x128) hz2, View.ld_unit_zero (S := S64x128) hz2, View.ld_unit_zero (S := S128) hz1, View.readCov_unit_zero (S := S10000x128) _ hz2]

/-- The run at a point of grid row 1, over its explicit store. -/
theorem runC_spec (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S128 .f32) (harg5 : arg5.IsWhole) (arg6 : Memref sig .tc .vmem S64x128 .f32) (harg6 : arg6.IsWhole) (arg7 : Memref sig .tc .vmem S64 .f32) (harg7 : arg7.IsWhole) (arg8 : Memref sig .tc .vmem S200x64 .f32) (harg8 : arg8.IsWhole) (arg9 : Memref sig .tc .vmem S10000x128 .f32) (harg9 : arg9.IsWhole) (arg10 : Memref sig .tc .vmem S10000x64 .f32) (harg10 : arg10.IsWhole) (hc0 : ¬condT i) (hc1 : ¬condU i) (hc2 : condO i)
    (x0 : Vec F S10000x128 .f32) (x1 : Vec F S200x10000 .f32) (x2 : Vec F S128x128 .f32) (x3 : Vec F S128 .f32) (x4 : Vec F S64x128 .f32) (x5 : Vec F S64 .f32) (xs0 : Vec F S10000x128 .f32) (xs1 : Vec F S10000x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f [⟨Rect.unit (s := S200x64) ![0, 0] S200x64.size inb_S200x64_S200x64_0_0, k0_pay3 x1 xs1 x5⟩]) ∗ owns (c : Thread nD τ) arg9 fullShare xs0 ∗ owns (c : Thread nD τ) arg10 fullShare xs1) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10) K := by
  have h := (runC c i arg2 harg2 arg3 harg3 arg4 harg4 arg5 harg5 arg6 harg6 arg7 harg7 arg8 harg8 arg9 harg9 arg10 harg10 hc0 hc1 hc2 x0 x1 x2 x3 x4 x5 xs0 xs1).2 E K
  rw [runC_pieces] at h
  exact h

/-- The run at a later point of grid row 0, over its explicit store. -/
theorem runB_spec (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S128 .f32) (harg5 : arg5.IsWhole) (arg6 : Memref sig .tc .vmem S64x128 .f32) (harg6 : arg6.IsWhole) (arg7 : Memref sig .tc .vmem S64 .f32) (harg7 : arg7.IsWhole) (arg8 : Memref sig .tc .vmem S200x64 .f32) (harg8 : arg8.IsWhole) (arg9 : Memref sig .tc .vmem S10000x128 .f32) (harg9 : arg9.IsWhole) (arg10 : Memref sig .tc .vmem S10000x64 .f32) (harg10 : arg10.IsWhole) (hc0 : ¬condT i) (hc1 : condU i) (hc2 : ¬condO i)
    (x0 : Vec F S10000x128 .f32) (x1 : Vec F S200x10000 .f32) (x2 : Vec F S128x128 .f32) (x3 : Vec F S128 .f32) (x4 : Vec F S64x128 .f32) (x5 : Vec F S64 .f32) (x6 : Vec F S200x64 .f32) (xs0 : Vec F S10000x128 .f32) (xs1 : Vec F S10000x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ (∃ f, ⌜arg10.view.read (Elt F) f = xs1⌝ ∗ arg10.view.loc (c : Thread nD τ) ↦[arg10.view.set]{fullShare} arg10.view.writes (Elt F) f [⟨Rect.unit (s := S10000x64) (k0_off1 i) S200x64.size (k0_off1_inb i hc1), k0_pay2 x1 xs0 x3 x4⟩])) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10) K := by
  have h := (runB c i arg2 harg2 arg3 harg3 arg4 harg4 arg5 harg5 arg6 harg6 arg7 harg7 arg8 harg8 arg9 harg9 arg10 harg10 hc0 hc1 hc2 x0 x1 x2 x3 x4 x5 x6 xs0 xs1).2 E K
  rw [runB_pieces] at h
  exact h

/-- The run at the first point, over its two explicit stores. -/
theorem runA_spec (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S128 .f32) (harg5 : arg5.IsWhole) (arg6 : Memref sig .tc .vmem S64x128 .f32) (harg6 : arg6.IsWhole) (arg7 : Memref sig .tc .vmem S64 .f32) (harg7 : arg7.IsWhole) (arg8 : Memref sig .tc .vmem S200x64 .f32) (harg8 : arg8.IsWhole) (arg9 : Memref sig .tc .vmem S10000x128 .f32) (harg9 : arg9.IsWhole) (arg10 : Memref sig .tc .vmem S10000x64 .f32) (harg10 : arg10.IsWhole) (hc0 : condT i) (hc1 : condU i) (hc2 : ¬condO i)
    (x0 : Vec F S10000x128 .f32) (x1 : Vec F S200x10000 .f32) (x2 : Vec F S128x128 .f32) (x3 : Vec F S128 .f32) (x4 : Vec F S64x128 .f32) (x5 : Vec F S64 .f32) (x6 : Vec F S200x64 .f32) (xs1 : Vec F S10000x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f [⟨Rect.unit (s := S10000x128) ![0, 0] S10000x128.size inb_S10000x128_S10000x128_0_0, k0_pay1 x0 x2⟩]) ∗ (∃ f, ⌜arg10.view.read (Elt F) f = xs1⌝ ∗ arg10.view.loc (c : Thread nD τ) ↦[arg10.view.set]{fullShare} arg10.view.writes (Elt F) f [⟨Rect.unit (s := S10000x64) (k0_off1 i) S200x64.size (k0_off1_inb i hc1), k0_pay2 x1 (k0_pay1 x0 x2) x3 x4⟩])) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10) K := by
  have h := (runA c i arg2 harg2 arg3 harg3 arg4 harg4 arg5 harg5 arg6 harg6 arg7 harg7 arg8 harg8 arg9 harg9 arg10 harg10 hc0 hc1 hc2 x0 x1 x2 x3 x4 x5 x6 xs1).2 E K
  rw [runA_pieces] at h
  exact h

/-- One store over a whole shape leaves its value, whatever was there. -/
theorem read_whole_store {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩), View.canon_unit_zero h]

end Cert.Kernel.Body

end
-- ==== Proof.K.Data.lean ====
/-
  What the kernel keeps between grid points, and the pipeline's proof data over it.
  The first scratch holds T, the first stored value of the grid's first point, from then on. The second scratch is
  filled 200 rows per point along grid row 0: after point n its rows below 200 · min (n + 1) 50 hold U, the array whose
  block k is the second stored value of point k; its other rows hold whatever they held. On grid row 1 the whole of
  it is U, and the output's block at a point is the third stored value of that point over U. The input windows'
  staging buffers hold their blocks at every point; the output's is idle along grid row 0 (handed back as found).
-/
import proofs.«148394_g17386027614455_cont_7to1_900_12_alg».proof.Proof.K.Conds
import Idealize.ShloMosaic.Lib.ValueIdx

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem N_eq : cfg0.N = 100 := N_0

/-- The grid's first point. -/
abbrev t0 : Fin cfg0.N := ⟨0, by rw [N_eq]; omega⟩

/-- T: what the first branch stores, from the blocks of X and W1 (each the whole array). -/
def Tarr (c : Dev nD) : Vec F S10000x128 .f32 := k0_pay1 (iblk m c 0 t0) (iblk m c 2 t0)

/-- Block t of U: what the second branch stores at point t, from the adjacency's block there, T, b1 and W2. -/
def Ublk (c : Dev nD) (t : Fin cfg0.N) : Vec F S200x64 .f32 := k0_pay2 (iblk m c 1 t) (Tarr m c) (iblk m c 3 t) (iblk m c 4 t)

/-- U: row r is row r % 200 of block r / 200. -/
def Uarr (c : Dev nD) : Vec F S10000x64 .f32 := fun y =>
  Ublk m c ⟨(y 0).val / 200, by have h : (y 0).val < 10000 := (y 0).isLt; rw [N_eq]; omega⟩
    (ValueIdx.ix2 (⟨(y 0).val % 200, Nat.mod_lt _ (by omega)⟩ : Fin 200) (⟨(y 1).val, (y 1).isLt⟩ : Fin 64))

/-- The output's block at point t: what the third branch stores there, from the adjacency's block, U and b2. -/
def Oblk (c : Dev nD) (t : Fin cfg0.N) : Vec F S200x64 .f32 := k0_pay3 (iblk m c 1 t) (Uarr m c) (iblk m c 5 t)

/-- The rows of the second scratch filled before point n. -/
def filled (n : ℕ) : ℕ := 200 * min n 50

/-- The region's invariant before point n: at entry both scratch buffers hold anything; afterwards the first holds T and
    the second agrees with U on its filled rows. -/
def PhiS (c : Dev nD) : (n : ℕ) → n ≤ cfg0.N → sProp 𝕄
  | 0, _ => Pipeline.ΦA spec0 c
  | n + 1, _ => iprop(iprop(owns (c : Thread nD τ) scT fullShare (Tarr m c) ∗ (∃ d, ⌜∀ y : S10000x64.Idx, (y 0).val < filled (n + 1) → d y = Uarr m c y⌝ ∗ owns (c : Thread nD τ) scU fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n + 1 ≤ cfg0.N) :
    PhiS m c (n + 1) hn = iprop(iprop(owns (c : Thread nD τ) scT fullShare (Tarr m c) ∗ (∃ d, ⌜∀ y : S10000x64.Idx, (y 0).val < filled (n + 1) → d y = Uarr m c y⌝ ∗ owns (c : Thread nD τ) scU fullShare d)) ∗ (∃ r, prngReg c r)) := rfl

theorem PhiS_pos (c : Dev nD) (n : ℕ) (h : n ≤ cfg0.N) (hz : n ≠ 0) :
    PhiS m c n h = iprop(iprop(owns (c : Thread nD τ) scT fullShare (Tarr m c) ∗ (∃ d, ⌜∀ y : S10000x64.Idx, (y 0).val < filled n → d y = Uarr m c y⌝ ∗ owns (c : Thread nD τ) scU fullShare d)) ∗ (∃ r, prngReg c r)) := by
  cases n with
  | zero => exact absurd rfl hz
  | succ n => rfl

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Oblk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = Oblk m c t := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

end Cert.Kernel.Body

end
-- ==== Proof.K.Fill.lean ====
/-
  Filling the second scratch one slice at a time. If a buffer agrees with U on the rows below 200 · t (t a point of grid
  row 0) and block t of U is stored through the 200-row slice at row offset 200 · t, the result agrees with U on the
  rows below 200 · (t + 1): inside the slice the stored block is read back, row r of the array being row r % 200 of
  block r / 200; outside it the buffer is unchanged. From point 50 on every row is filled.
-/
import proofs.«148394_g17386027614455_cont_7to1_900_12_alg».proof.Proof.K.Data
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem filled_lt (n : ℕ) (h : n ≤ 50) : filled n = 200 * n := by unfold filled; rw [min_eq_left h]
theorem filled_ge (n : ℕ) (h : 50 ≤ n) : filled n = 10000 := by unfold filled; rw [min_eq_right h]

/-- Row r of U, column q, is entry (r % 200, q) of block r / 200: at the slice's own indices, block t itself. -/
theorem Uarr_slice (c : Dev nD) (t : Fin cfg0.N) (ht : t.val < 50)
    (inb : ∀ a, k0_off1 (grid0.coords t) a + S200x64.size a ≤ S10000x64.size a)
    (x : (Rect.unit (s := S10000x64) (k0_off1 (grid0.coords t)) S200x64.size inb).shape.Idx) :
    Uarr m c ((Rect.unit (s := S10000x64) (k0_off1 (grid0.coords t)) S200x64.size inb).emb x) = Ublk m c t x := by
  have ho0 := off_row t ht
  have ho1 := off_col t
  have hx0 : (x 0).val < 200 := (x 0).isLt
  have hx1 : (x 1).val < 64 := (x 1).isLt
  have e0 : (((Rect.unit (s := S10000x64) (k0_off1 (grid0.coords t)) S200x64.size inb).emb x) 0).val = 200 * t.val + (x 0).val := by
    rw [Rect.emb_apply]; simp only [Rect.off_unit, Rect.stride_unit, Nat.one_mul]; rw [ho0]
  have e1 : (((Rect.unit (s := S10000x64) (k0_off1 (grid0.coords t)) S200x64.size inb).emb x) 1).val = (x 1).val := by
    rw [Rect.emb_apply]; simp only [Rect.off_unit, Rect.stride_unit, Nat.one_mul]; rw [ho1, Nat.zero_add]
  unfold Uarr
  have et : (⟨(((Rect.unit (s := S10000x64) (k0_off1 (grid0.coords t)) S200x64.size inb).emb x) 0).val / 200,
      by have h : (((Rect.unit (s := S10000x64) (k0_off1 (grid0.coords t)) S200x64.size inb).emb x) 0).val < 10000 := (((Rect.unit (s := S10000x64) (k0_off1 (grid0.coords t)) S200x64.size inb).emb x) 0).isLt
         rw [N_eq]; omega⟩ : Fin cfg0.N) = t := Fin.ext (by show _ / 200 = t.val; rw [e0]; omega)
  have ex : (ValueIdx.ix2 (⟨(((Rect.unit (s := S10000x64) (k0_off1 (grid0.coords t)) S200x64.size inb).emb x) 0).val % 200, Nat.mod_lt _ (by omega)⟩ : Fin 200)
      (⟨(((Rect.unit (s := S10000x64) (k0_off1 (grid0.coords t)) S200x64.size inb).emb x) 1).val, (((Rect.unit (s := S10000x64) (k0_off1 (grid0.coords t)) S200x64.size inb).emb x) 1).isLt⟩ : Fin 64) : S200x64.Idx) = x :=
    funext fun a => Fin.ext (by
      match a with
      | ⟨0, _⟩ => show _ % 200 = (x 0).val; rw [e0]; omega
      | ⟨1, _⟩ => show _ = (x 1).val; exact e1)
  exact congrArg₂ (fun (a : Fin cfg0.N) (b : S200x64.Idx) => Ublk m c a b) et ex

/-- One more slice. -/
theorem fill_step (c : Dev nD) (t : Fin cfg0.N) (ht : t.val < 50) {sg : RefSig} {κ : Kind} {sp : Space}
    (v : View sg κ sp S10000x64 .f32) (f : v.ty.Contents (Elt F)) (d : Vec F S10000x64 .f32) (hf : v.read (Elt F) f = d)
    (hd : ∀ y : S10000x64.Idx, (y 0).val < filled t.val → d y = Uarr m c y)
    (inb : ∀ a, k0_off1 (grid0.coords t) a + S200x64.size a ≤ S10000x64.size a) :
    ∀ y : S10000x64.Idx, (y 0).val < filled (t.val + 1) →
      v.read (Elt F) (v.writes (Elt F) f [(⟨Rect.unit (s := S10000x64) (k0_off1 (grid0.coords t)) S200x64.size inb, Ublk m c t⟩ : View.Piece (Elt F) S10000x64 .f32)]) y = Uarr m c y := by
  intro y hy
  have ho0 := off_row t ht
  have ho1 := off_col t
  by_cases hm : y ∈ (Rect.unit (s := S10000x64) (k0_off1 (grid0.coords t)) S200x64.size inb).set
  · obtain ⟨x, rfl⟩ := (Rect.unit (s := S10000x64) (k0_off1 (grid0.coords t)) S200x64.size inb).exists_idx_of_mem hm
    rw [show (Rect.unit (s := S10000x64) (k0_off1 (grid0.coords t)) S200x64.size inb).idx x = (Rect.unit (s := S10000x64) (k0_off1 (grid0.coords t)) S200x64.size inb).emb x from rfl,
      View.read_writes_cons_emb]
    exact (Uarr_slice m c t ht inb x).symm
  · rw [View.read_writes_apply_of_forall_not_mem v f y _ (fun p hp => by rw [List.mem_singleton.mp hp]; exact hm), hf]
    refine hd y ?_
    rw [filled_lt _ (by omega)] at hy ⊢
    by_contra hlt
    refine hm (Rect.mem_set_unit.mpr fun a => ?_)
    match a with
    | ⟨0, _⟩ =>
      show k0_off1 (grid0.coords t) 0 ≤ (y 0).val ∧ (y 0).val < k0_off1 (grid0.coords t) 0 + 200
      rw [ho0]; omega
    | ⟨1, _⟩ =>
      have h1 : (y 1).val < 64 := (y 1).isLt
      show k0_off1 (grid0.coords t) 1 ≤ (y 1).val ∧ (y 1).val < k0_off1 (grid0.coords t) 1 + 64
      rw [ho1]; omega

/-- From point 50 on the buffer is U. -/
theorem full_of_filled (c : Dev nD) (n : ℕ) (hn : 50 ≤ n) (d : Vec F S10000x64 .f32)
    (hd : ∀ y : S10000x64.Idx, (y 0).val < filled n → d y = Uarr m c y) : d = Uarr m c :=
  funext fun y => hd y (by rw [filled_ge n hn]; exact (y 0).isLt)

end Cert.Kernel.Body

end
-- ==== Proof.K.Sound.lean ====
/-
  The kernel body at every grid point, against the pipeline's proof data. The point's case is read off its number: point 0
  takes the first two branches, points 1 … 49 the second, points 50 … 99 the third. In each case the run over its explicit
  stores applies: the input windows' staging buffers hold their blocks; the invariant hands the body the first scratch at
  T (at anything at point 0) and the second at contents agreeing with U on its filled rows; the stores' results are read
  back as T, as one more filled slice of U, or as the output's block; the output's staging buffer, idle along grid row 0, is
  handed back as found there.
-/
import proofs.«148394_g17386027614455_cont_7to1_900_12_alg».proof.Proof.K.Pieces
import proofs.«148394_g17386027614455_cont_7to1_900_12_alg».proof.Proof.K.Fill

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ]
  have hN : t.val < 100 := lt_of_lt_of_eq t.isLt N_eq
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [show (dats m 0 c).leavesExact 4 t = owns (c : Thread nD τ) (ms4 t) fullShare ((dats m 0 c).after 4 t) from by
    unfold Dat.leavesExact; rw [live4 t], after_4]
  rw [show (dats m 0 c).leavesExact 5 t = owns (c : Thread nD τ) (ms5 t) fullShare ((dats m 0 c).after 5 t) from by
    unfold Dat.leavesExact; rw [live5 t], after_5]
  by_cases h1 : t.val < 50
  · rw [Dat.leavesExact_idle (dats m 0 c) 6 t (idle6_lo t h1) (flush6_lo t h1)]
    by_cases hz : t.val = 0
    · obtain rfl : t = t0 := Fin.ext hz
      rw [PhiS_castSucc m c t0, PhiS_zero m c _ _ rfl, PhiA_eq]
      iintro ⟨⟨⟨HS0, ⟨%dU, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runA_spec c (grid0.coords t0) _ _ _ _ _ _ _ _ _ _ _ _ _ _ _ _ _ _ ((condT_iff t0).mpr rfl) ((condU_iff t0).mpr h1) (fun h => absurd ((condO_iff t0).mp h) (by omega)) (iblk m c 0 t0) (iblk m c 1 t0) (iblk m c 2 t0) (iblk m c 3 t0) (iblk m c 4 t0) (iblk m c 5 t0) ((dats m 0 c).before 6 t0 d6) dU Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%eT, HS0⟩, ⟨%eU, %heU, HS1⟩⟩
      isplitl [HS0 HS1 Hg]
      · isplitl [HS0 HS1]
        · isplitl [HS0]
          · unfold owns; iexists _; isplitr
            swap; · iexact HS0
            ipureintro; exact read_whole_store _ _ hz2 _ _
          · iexists _; isplitr
            swap
            · unfold owns; iexists _; isplitr
              swap; · iexact HS1
              ipureintro; rfl
            ipureintro
            exact fill_step m c t0 h1 _ eU dU heU (fun y hy => absurd hy (by rw [filled_lt 0 (by omega)]; omega)) _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨⟨⟨HS0, ⟨%dU, %hdU, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runB_spec c (grid0.coords t) _ _ _ _ _ _ _ _ _ _ _ _ _ _ _ _ _ _ (fun h => hz ((condT_iff t).mp h)) ((condU_iff t).mpr h1) (fun h => absurd ((condO_iff t).mp h) (by omega)) (iblk m c 0 t) (iblk m c 1 t) (iblk m c 2 t) (iblk m c 3 t) (iblk m c 4 t) (iblk m c 5 t) ((dats m 0 c).before 6 t d6) (Tarr m c) dU Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, ⟨%eU, %heU, HS1⟩⟩
      isplitl [HS0 HS1 Hg]
      · isplitl [HS0 HS1]
        · isplitl [HS0]; · iexact HS0
          iexists _; isplitr
          swap
          · unfold owns; iexists _; isplitr
            swap; · iexact HS1
            ipureintro; rfl
          ipureintro
          exact fill_step m c t h1 _ eU dU heU hdU _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have h2 : 50 ≤ t.val := by omega
    have hz : t.val ≠ 0 := by omega
    rw [show (dats m 0 c).leavesExact 6 t = owns (c : Thread nD τ) (ms6 t) fullShare ((dats m 0 c).after 6 t) from by
      unfold Dat.leavesExact; rw [idle6_hi t h2], after_6]
    rw [PhiS_castSucc m c t, PhiS_pos m c _ _ hz]
    iintro ⟨⟨⟨HS0, ⟨%dU, %hdU, HS1⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl : dU = Uarr m c := full_of_filled m c t.val h2 dU hdU
    iapply (runC_spec c (grid0.coords t) _ _ _ _ _ _ _ _ _ _ _ _ _ _ _ _ _ _ (fun h => hz ((condT_iff t).mp h)) (fun h => h1 ((condU_iff t).mp h)) ((condO_iff t).mpr h2) (iblk m c 0 t) (iblk m c 1 t) (iblk m c 2 t) (iblk m c 3 t) (iblk m c 4 t) (iblk m c 5 t) (Tarr m c) (Uarr m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%e6, H6⟩, HS0, HS1⟩
    isplitl [HS0 HS1 Hg]
    · isplitl [HS0 HS1]
      · isplitl [HS0]; · iexact HS0
        iexists _; isplitr
        swap; · iexact HS1
        ipureintro; intro y _; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact read_whole_store _ _ hz2 _ _

/-- The body obligation of the pipeline's proof data. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: what the scratch buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last, N_eq]; omega), PhiA_eq]
  iintro ⟨⟨HS0, ⟨%d, -, HS1⟩⟩, Hg⟩
  isplitl [HS0 HS1]
  · isplitl [HS0]
    · iexists _; iexact HS0
    iexists _; iexact HS1
  iexact Hg

end Cert.Kernel.Body

end
-- ==== Proof.K.Main.lean ====
/-
  The whole run: from any memory with zero counters every weakly fair execution of the program terminates, nothing faulting,
  with every windowed array at what the write-backs of the proof data leave there and every other buffer as the region
  found it; in particular the six argument arrays end unchanged.
-/
import proofs.«148394_g17386027614455_cont_7to1_900_12_alg».proof.Proof.K.Sound

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

set_option backward.isDefEq.respectTransparency.types false in
/-- The run to the pipeline's post. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.KI.Conds.lean ====
/-
  The kernel body's three branch conditions as functions of the grid point, each decided over the 2 × 50 grid in closed
  form: the first branch (compute T = X · W1ᵀ into the first scratch) is taken at point 0 only; the second (one block
  of 200 rows of U into the second scratch) at the 50 points of grid row 0; the third (one block of the output) at the
  50 points of grid row 1. The output window is idle exactly where the third branch is not taken, and its block is
  written back exactly at the points of grid row 1. The second branch stores at row offset 200 · (the point's column).
-/
import proofs.«148394_g17386027614455_cont_7to1_900_12_alg».proof.Proof.Gen.KernelIdeal.Frame
import proofs.«148394_g17386027614455_cont_7to1_900_12_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first branch's condition: both grid coordinates are zero. -/
abbrev condT (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem condT_iff : ∀ t : Fin cfg0.N, condT (grid0.coords t) ↔ t.val = 0 :=
  (by decide +kernel : ∀ t : Fin grid0.N, condT (grid0.coords t) ↔ t.val = 0)

/-- The second branch's condition: grid row 0. -/
abbrev condU (i : grid0.Coords) : Prop := k0_cond2 i = 1#1
theorem condU_iff : ∀ t : Fin cfg0.N, condU (grid0.coords t) ↔ t.val < 50 :=
  (by decide +kernel : ∀ t : Fin grid0.N, condU (grid0.coords t) ↔ t.val < 50)

/-- The third branch's condition: grid row 1. -/
abbrev condO (i : grid0.Coords) : Prop := k0_cond3 i = 1#1
theorem condO_iff : ∀ t : Fin cfg0.N, condO (grid0.coords t) ↔ 50 ≤ t.val :=
  (by decide +kernel : ∀ t : Fin grid0.N, condO (grid0.coords t) ↔ 50 ≤ t.val)

/-- The input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

/-- The output window is idle on grid row 0 and live on grid row 1. -/
theorem idle6_lo : ∀ t : Fin cfg0.N, t.val < 50 → cfg0.idle 6 (grid0.coords t) = true :=
  (by decide +kernel : ∀ t : Fin grid0.N, t.val < 50 → cfg0.idle 6 (grid0.coords t) = true)
theorem idle6_hi : ∀ t : Fin cfg0.N, 50 ≤ t.val → cfg0.idle 6 (grid0.coords t) = false :=
  (by decide +kernel : ∀ t : Fin grid0.N, 50 ≤ t.val → cfg0.idle 6 (grid0.coords t) = false)

/-- The output's block is written back at every point of grid row 1 and at no point of grid row 0. -/
theorem flush6_lo : ∀ t : Fin cfg0.N, t.val < 50 → (cfg0.win 6).flush t = false :=
  (by decide +kernel : ∀ t : Fin grid0.N, t.val < 50 → win0_6.flush t = false)
theorem flush6_hi : ∀ t : Fin cfg0.N, 50 ≤ t.val → (cfg0.win 6).flush t = true :=
  (by decide +kernel : ∀ t : Fin grid0.N, 50 ≤ t.val → win0_6.flush t = true)

/-- On grid row 0 the second branch's slice starts at row 200 · t. -/
theorem off_row : ∀ t : Fin cfg0.N, t.val < 50 → k0_off1 (grid0.coords t) 0 = 200 * t.val :=
  (by decide +kernel : ∀ t : Fin grid0.N, t.val < 50 → k0_off1 (grid0.coords t) 0 = 200 * t.val)
theorem off_col : ∀ t : Fin cfg0.N, k0_off1 (grid0.coords t) 1 = 0 :=
  (by decide +kernel : ∀ t : Fin grid0.N, k0_off1 (grid0.coords t) 1 = 0)

/-- Each window's current staging memref at point `t`, as the pipeline passes it to the body, and its wholeness. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S200x64 .f32 := win0_6.stage (cfg0.slots t 6)
abbrev hs6 (t : Fin cfg0.N) : (ms6 t).IsWhole := hstage0_6 ((cfg0.slots t 6).cast nbuf0_6)
/-- The two scratch operands: whole scoped buffers of the kernel's own. -/
abbrev scT : Memref sig .tc .vmem S10000x128 .f32 := Memref.whole cc0_scratch0
abbrev scU : Memref sig .tc .vmem S10000x64 .f32 := Memref.whole cc0_scratch1

/-- The region's invariant at entry, with the two scratch buffers as memrefs owned at some contents. -/
theorem PhiA_eq (c : Dev nD) :
    (Pipeline.ΦA spec0 c : sProp 𝕄)
      = iprop(iprop((∃ d, owns (c : Thread nD τ) scT fullShare d) ∗ (∃ d, owns (c : Thread nD τ) scU fullShare d)) ∗ (∃ r, prngReg c r)) := by
  unfold Pipeline.ΦA; rw [scopedRest0_eq]; simp only [scT, scU, owns_whole]; try rfl

end Cert.KernelIdeal.Body

end
-- ==== Proof.KI.RunA.lean ====
/-
  The kernel body at the grid's first point (the first and second branches taken): on whole staging memrefs holding the
  point's input blocks and both scratch buffers at some contents, the body loads X and W1 and stores T = X · W1ᵀ over the
  whole first scratch, then loads the adjacency block, T back, b1 and W2 and stores the first slice of 200 rows into the
  second scratch; every other buffer is returned as found. What each scratch then holds is given as the list of pieces the
  body's stores left there (the first scratch's one piece covers it; the second's is written over what it held).
-/
import proofs.«148394_g17386027614455_cont_7to1_900_12_alg».proof.Proof.KI.Conds

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The run at the first point, with the pieces left in the two scratch buffers. -/
noncomputable def runA (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S128 .f32) (harg5 : arg5.IsWhole) (arg6 : Memref sig .tc .vmem S64x128 .f32) (harg6 : arg6.IsWhole) (arg7 : Memref sig .tc .vmem S64 .f32) (harg7 : arg7.IsWhole) (arg8 : Memref sig .tc .vmem S200x64 .f32) (harg8 : arg8.IsWhole) (arg9 : Memref sig .tc .vmem S10000x128 .f32) (harg9 : arg9.IsWhole) (arg10 : Memref sig .tc .vmem S10000x64 .f32) (harg10 : arg10.IsWhole) (hc0 : condT i) (hc1 : condU i) (hc2 : ¬condO i)
    (x0 : Vec F S10000x128 .f32) (x1 : Vec F S200x10000 .f32) (x2 : Vec F S128x128 .f32) (x3 : Vec F S128 .f32) (x4 : Vec F S64x128 .f32) (x5 : Vec F S64 .f32) (x6 : Vec F S200x64 .f32) (xs1 : Vec F S10000x64 .f32) :
    { LS : List (View.Piece (Elt F) S10000x128 .f32) × List (View.Piece (Elt F) S10000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f LS.1) ∗ (∃ f, ⌜arg10.view.read (Elt F) f = xs1⌝ ∗ arg10.view.loc (c : Thread nD τ) ↦[arg10.view.set]{fullShare} arg10.view.writes (Elt F) f LS.2)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨(?_, ?_), fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; isplitr; · ipureintro; exact harg10.read_unread _
    iexact HS1

end Cert.KernelIdeal.Body

end
-- ==== Proof.KI.RunB.lean ====
/-
  The kernel body at a point of grid row 0 other than the first (only the second branch taken): on whole staging memrefs
  holding the point's input blocks, the first scratch at T and the second at some contents, the body loads the adjacency
  block, T, b1 and W2, stores one slice of 200 rows into the second scratch, and returns every other buffer as it found
  it (the output's staging buffer included: nothing is stored there). What the second scratch then holds is given as the
  list of pieces the body's stores left there, written over what it held.
-/
import proofs.«148394_g17386027614455_cont_7to1_900_12_alg».proof.Proof.KI.Conds

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The run at a later point of grid row 0, with the pieces left in the second scratch. -/
noncomputable def runB (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S128 .f32) (harg5 : arg5.IsWhole) (arg6 : Memref sig .tc .vmem S64x128 .f32) (harg6 : arg6.IsWhole) (arg7 : Memref sig .tc .vmem S64 .f32) (harg7 : arg7.IsWhole) (arg8 : Memref sig .tc .vmem S200x64 .f32) (harg8 : arg8.IsWhole) (arg9 : Memref sig .tc .vmem S10000x128 .f32) (harg9 : arg9.IsWhole) (arg10 : Memref sig .tc .vmem S10000x64 .f32) (harg10 : arg10.IsWhole) (hc0 : ¬condT i) (hc1 : condU i) (hc2 : ¬condO i)
    (x0 : Vec F S10000x128 .f32) (x1 : Vec F S200x10000 .f32) (x2 : Vec F S128x128 .f32) (x3 : Vec F S128 .f32) (x4 : Vec F S64x128 .f32) (x5 : Vec F S64 .f32) (x6 : Vec F S200x64 .f32) (xs0 : Vec F S10000x128 .f32) (xs1 : Vec F S10000x64 .f32) :
    { L10 : List (View.Piece (Elt F) S10000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ (∃ f, ⌜arg10.view.read (Elt F) f = xs1⌝ ∗ arg10.view.loc (c : Thread nD τ) ↦[arg10.view.set]{fullShare} arg10.view.writes (Elt F) f L10)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    iexists _; isplitr; · ipureintro; exact harg10.read_unread _
    iexact HS1

end Cert.KernelIdeal.Body

end
-- ==== Proof.KI.RunC.lean ====
/-
  The kernel body at a point of grid row 1 (only the third branch taken): on whole staging memrefs holding the point's
  input blocks, the first scratch at T and the second at U, the body loads the adjacency block, U and b2, stores one
  block of the output, and returns every other buffer as it found it. What the output's staging buffer then holds is
  given as the list of pieces the body's stores left there.
-/
import proofs.«148394_g17386027614455_cont_7to1_900_12_alg».proof.Proof.KI.Conds

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The run at a point of grid row 1, with the pieces left in the output's staging buffer. -/
noncomputable def runC (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S128 .f32) (harg5 : arg5.IsWhole) (arg6 : Memref sig .tc .vmem S64x128 .f32) (harg6 : arg6.IsWhole) (arg7 : Memref sig .tc .vmem S64 .f32) (harg7 : arg7.IsWhole) (arg8 : Memref sig .tc .vmem S200x64 .f32) (harg8 : arg8.IsWhole) (arg9 : Memref sig .tc .vmem S10000x128 .f32) (harg9 : arg9.IsWhole) (arg10 : Memref sig .tc .vmem S10000x64 .f32) (harg10 : arg10.IsWhole) (hc0 : ¬condT i) (hc1 : ¬condU i) (hc2 : condO i)
    (x0 : Vec F S10000x128 .f32) (x1 : Vec F S200x10000 .f32) (x2 : Vec F S128x128 .f32) (x3 : Vec F S128 .f32) (x4 : Vec F S64x128 .f32) (x5 : Vec F S64 .f32) (xs0 : Vec F S10000x128 .f32) (xs1 : Vec F S10000x64 .f32) :
    { L8 : List (View.Piece (Elt F) S200x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L8) ∗ owns (c : Thread nD τ) arg9 fullShare xs0 ∗ owns (c : Thread nD τ) arg10 fullShare xs1) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    iexists _; isplitr; · ipureintro; exact harg10.read_unread _
    iexact HS1

end Cert.KernelIdeal.Body

end
-- ==== Proof.KI.Pieces.lean ====
/-
  What the kernel body's stores are, case by case. At the first point: one store of T = (first stored value of X and W1)
  over the whole first scratch, then one store of the second stored value (of the adjacency block, T read back, b1, W2)
  through the 200-row slice at the point's row offset of the second scratch. At a later point of grid row 0: that second
  store alone, T being what the first scratch holds. At a point of grid row 1: one store of the third stored value (of
  the adjacency block, the second scratch's contents, b2) over the whole output block. Each run restated over these
  explicit stores.
-/
import proofs.«148394_g17386027614455_cont_7to1_900_12_alg».proof.Proof.KI.RunA
import proofs.«148394_g17386027614455_cont_7to1_900_12_alg».proof.Proof.KI.RunB
import proofs.«148394_g17386027614455_cont_7to1_900_12_alg».proof.Proof.KI.RunC
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz1 : (![0] : Fin 1 → ℕ) = fun _ => 0 := by funext a; fin_cases a; rfl

/-- The store at a point of grid row 1. -/
theorem runC_pieces (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S128 .f32) (harg5 : arg5.IsWhole) (arg6 : Memref sig .tc .vmem S64x128 .f32) (harg6 : arg6.IsWhole) (arg7 : Memref sig .tc .vmem S64 .f32) (harg7 : arg7.IsWhole) (arg8 : Memref sig .tc .vmem S200x64 .f32) (harg8 : arg8.IsWhole) (arg9 : Memref sig .tc .vmem S10000x128 .f32) (harg9 : arg9.IsWhole) (arg10 : Memref sig .tc .vmem S10000x64 .f32) (harg10 : arg10.IsWhole) (hc0 : ¬condT i) (hc1 : ¬condU i) (hc2 : condO i)
    (x0 : Vec F S10000x128 .f32) (x1 : Vec F S200x10000 .f32) (x2 : Vec F S128x128 .f32) (x3 : Vec F S128 .f32) (x4 : Vec F S64x128 .f32) (x5 : Vec F S64 .f32) (xs0 : Vec F S10000x128 .f32) (xs1 : Vec F S10000x64 .f32) :
    (runC c i arg2 harg2 arg3 harg3 arg4 harg4 arg5 harg5 arg6 harg6 arg7 harg7 arg8 harg8 arg9 harg9 arg10 harg10 hc0 hc1 hc2 x0 x1 x2 x3 x4 x5 xs0 xs1).1
      = [⟨Rect.unit (s := S200x64) ![0, 0] S200x64.size inb_S200x64_S200x64_0_0, k0_pay3 x1 xs1 x5⟩] := by
  unfold runC
  dsimp only
  sl_unfold_run_names
  simp only [View.readAt_eq_ld, harg3.read_unread, harg10.read_unread, harg7.read_unread, View.ld_unit_zero (S := S200x10000) hz2, View.ld_unit_zero (S := S10000x64) hz2, View.ld_unit_zero (S := S64) hz1]

/-- The store at a later point of grid row 0. -/
theorem runB_pieces (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S128 .f32) (harg5 : arg5.IsWhole) (arg6 : Memref sig .tc .vmem S64x128 .f32) (harg6 : arg6.IsWhole) (arg7 : Memref sig .tc .vmem S64 .f32) (harg7 : arg7.IsWhole) (arg8 : Memref sig .tc .vmem S200x64 .f32) (harg8 : arg8.IsWhole) (arg9 : Memref sig .tc .vmem S10000x128 .f32) (harg9 : arg9.IsWhole) (arg10 : Memref sig .tc .vmem S10000x64 .f32) (harg10 : arg10.IsWhole) (hc0 : ¬condT i) (hc1 : condU i) (hc2 : ¬condO i)
    (x0 : Vec F S10000x128 .f32) (x1 : Vec F S200x10000 .f32) (x2 : Vec F S128x128 .f32) (x3 : Vec F S128 .f32) (x4 : Vec F S64x128 .f32) (x5 : Vec F S64 .f32) (x6 : Vec F S200x64 .f32) (xs0 : Vec F S10000x128 .f32) (xs1 : Vec F S10000x64 .f32) :
    (runB c i arg2 harg2 arg3 harg3 arg4 harg4 arg5 harg5 arg6 harg6 arg7 harg7 arg8 harg8 arg9 harg9 arg10 harg10 hc0 hc1 hc2 x0 x1 x2 x3 x4 x5 x6 xs0 xs1).1
      = [⟨Rect.unit (s := S10000x64) (k0_off1 i) S200x64.size (k0_off1_inb i hc1), k0_pay2 x1 xs0 x3 x4⟩] := by
  unfold runB
  dsimp only
  sl_unfold_run_names
  simp only [View.readAt_eq_ld, harg3.read_unread, harg9.read_unread, harg5.read_unread, harg6.read_unread, View.ld_unit_zero (S := S200x10000) hz2, View.ld_unit_zero (S := S10000x128) hz2, View.ld_unit_zero (S := S64x128) hz2, View.ld_unit_zero (S := S128) hz1]

/-- The two stores at the first point. -/
theorem runA_pieces (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S128 .f32) (harg5 : arg5.IsWhole) (arg6 : Memref sig .tc .vmem S64x128 .f32) (harg6 : arg6.IsWhole) (arg7 : Memref sig .tc .vmem S64 .f32) (harg7 : arg7.IsWhole) (arg8 : Memref sig .tc .vmem S200x64 .f32) (harg8 : arg8.IsWhole) (arg9 : Memref sig .tc .vmem S10000x128 .f32) (harg9 : arg9.IsWhole) (arg10 : Memref sig .tc .vmem S10000x64 .f32) (harg10 : arg10.IsWhole) (hc0 : condT i) (hc1 : condU i) (hc2 : ¬condO i)
    (x0 : Vec F S10000x128 .f32) (x1 : Vec F S200x10000 .f32) (x2 : Vec F S128x128 .f32) (x3 : Vec F S128 .f32) (x4 : Vec F S64x128 .f32) (x5 : Vec F S64 .f32) (x6 : Vec F S200x64 .f32) (xs1 : Vec F S10000x64 .f32) :
    (runA c i arg2 harg2 arg3 harg3 arg4 harg4 arg5 harg5 arg6 harg6 arg7 harg7 arg8 harg8 arg9 harg9 arg10 harg10 hc0 hc1 hc2 x0 x1 x2 x3 x4 x5 x6 xs1).1
      = ([⟨Rect.unit (s := S10000x128) ![0, 0] S10000x128.size inb_S10000x128_S10000x128_0_0, k0_pay1 x0 x2⟩],
         [⟨Rect.unit (s := S10000x64) (k0_off1 i) S200x64.size (k0_off1_inb i hc1), k0_pay2 x1 (k0_pay1 x0 x2) x3 x4⟩]) := by
  unfold runA
  dsimp only
  sl_unfold_run_names
  simp only [View.readAt_eq_ld, harg2.read_unread, harg4.read_unread, harg3.read_unread, harg5.read_unread, harg6.read_unread, View.ld_unit_zero (S := S200x10000) hz2, View.ld_unit_zero (S := S10000x128) hz2, View.ld_unit_zero (S := S128x128) hz2, View.ld_unit_zero (S := S64x128) hz2, View.ld_unit_zero (S := S128) hz1, View.readCov_unit_zero (S := S10000x128) _ hz2]

/-- The run at a point of grid row 1, over its explicit store. -/
theorem runC_spec (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S128 .f32) (harg5 : arg5.IsWhole) (arg6 : Memref sig .tc .vmem S64x128 .f32) (harg6 : arg6.IsWhole) (arg7 : Memref sig .tc .vmem S64 .f32) (harg7 : arg7.IsWhole) (arg8 : Memref sig .tc .vmem S200x64 .f32) (harg8 : arg8.IsWhole) (arg9 : Memref sig .tc .vmem S10000x128 .f32) (harg9 : arg9.IsWhole) (arg10 : Memref sig .tc .vmem S10000x64 .f32) (harg10 : arg10.IsWhole) (hc0 : ¬condT i) (hc1 : ¬condU i) (hc2 : condO i)
    (x0 : Vec F S10000x128 .f32) (x1 : Vec F S200x10000 .f32) (x2 : Vec F S128x128 .f32) (x3 : Vec F S128 .f32) (x4 : Vec F S64x128 .f32) (x5 : Vec F S64 .f32) (xs0 : Vec F S10000x128 .f32) (xs1 : Vec F S10000x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f [⟨Rect.unit (s := S200x64) ![0, 0] S200x64.size inb_S200x64_S200x64_0_0, k0_pay3 x1 xs1 x5⟩]) ∗ owns (c : Thread nD τ) arg9 fullShare xs0 ∗ owns (c : Thread nD τ) arg10 fullShare xs1) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10) K := by
  have h := (runC c i arg2 harg2 arg3 harg3 arg4 harg4 arg5 harg5 arg6 harg6 arg7 harg7 arg8 harg8 arg9 harg9 arg10 harg10 hc0 hc1 hc2 x0 x1 x2 x3 x4 x5 xs0 xs1).2 E K
  rw [runC_pieces] at h
  exact h

/-- The run at a later point of grid row 0, over its explicit store. -/
theorem runB_spec (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S128 .f32) (harg5 : arg5.IsWhole) (arg6 : Memref sig .tc .vmem S64x128 .f32) (harg6 : arg6.IsWhole) (arg7 : Memref sig .tc .vmem S64 .f32) (harg7 : arg7.IsWhole) (arg8 : Memref sig .tc .vmem S200x64 .f32) (harg8 : arg8.IsWhole) (arg9 : Memref sig .tc .vmem S10000x128 .f32) (harg9 : arg9.IsWhole) (arg10 : Memref sig .tc .vmem S10000x64 .f32) (harg10 : arg10.IsWhole) (hc0 : ¬condT i) (hc1 : condU i) (hc2 : ¬condO i)
    (x0 : Vec F S10000x128 .f32) (x1 : Vec F S200x10000 .f32) (x2 : Vec F S128x128 .f32) (x3 : Vec F S128 .f32) (x4 : Vec F S64x128 .f32) (x5 : Vec F S64 .f32) (x6 : Vec F S200x64 .f32) (xs0 : Vec F S10000x128 .f32) (xs1 : Vec F S10000x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ (∃ f, ⌜arg10.view.read (Elt F) f = xs1⌝ ∗ arg10.view.loc (c : Thread nD τ) ↦[arg10.view.set]{fullShare} arg10.view.writes (Elt F) f [⟨Rect.unit (s := S10000x64) (k0_off1 i) S200x64.size (k0_off1_inb i hc1), k0_pay2 x1 xs0 x3 x4⟩])) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10) K := by
  have h := (runB c i arg2 harg2 arg3 harg3 arg4 harg4 arg5 harg5 arg6 harg6 arg7 harg7 arg8 harg8 arg9 harg9 arg10 harg10 hc0 hc1 hc2 x0 x1 x2 x3 x4 x5 x6 xs0 xs1).2 E K
  rw [runB_pieces] at h
  exact h

/-- The run at the first point, over its two explicit stores. -/
theorem runA_spec (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S128 .f32) (harg5 : arg5.IsWhole) (arg6 : Memref sig .tc .vmem S64x128 .f32) (harg6 : arg6.IsWhole) (arg7 : Memref sig .tc .vmem S64 .f32) (harg7 : arg7.IsWhole) (arg8 : Memref sig .tc .vmem S200x64 .f32) (harg8 : arg8.IsWhole) (arg9 : Memref sig .tc .vmem S10000x128 .f32) (harg9 : arg9.IsWhole) (arg10 : Memref sig .tc .vmem S10000x64 .f32) (harg10 : arg10.IsWhole) (hc0 : condT i) (hc1 : condU i) (hc2 : ¬condO i)
    (x0 : Vec F S10000x128 .f32) (x1 : Vec F S200x10000 .f32) (x2 : Vec F S128x128 .f32) (x3 : Vec F S128 .f32) (x4 : Vec F S64x128 .f32) (x5 : Vec F S64 .f32) (x6 : Vec F S200x64 .f32) (xs1 : Vec F S10000x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f [⟨Rect.unit (s := S10000x128) ![0, 0] S10000x128.size inb_S10000x128_S10000x128_0_0, k0_pay1 x0 x2⟩]) ∗ (∃ f, ⌜arg10.view.read (Elt F) f = xs1⌝ ∗ arg10.view.loc (c : Thread nD τ) ↦[arg10.view.set]{fullShare} arg10.view.writes (Elt F) f [⟨Rect.unit (s := S10000x64) (k0_off1 i) S200x64.size (k0_off1_inb i hc1), k0_pay2 x1 (k0_pay1 x0 x2) x3 x4⟩])) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10) K := by
  have h := (runA c i arg2 harg2 arg3 harg3 arg4 harg4 arg5 harg5 arg6 harg6 arg7 harg7 arg8 harg8 arg9 harg9 arg10 harg10 hc0 hc1 hc2 x0 x1 x2 x3 x4 x5 x6 xs1).2 E K
  rw [runA_pieces] at h
  exact h

/-- One store over a whole shape leaves its value, whatever was there. -/
theorem read_whole_store {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩), View.canon_unit_zero h]

end Cert.KernelIdeal.Body

end
-- ==== Proof.KI.Data.lean ====
/-
  What the kernel keeps between grid points, and the pipeline's proof data over it.
  The first scratch holds T, the first stored value of the grid's first point, from then on. The second scratch is
  filled 200 rows per point along grid row 0: after point n its rows below 200 · min (n + 1) 50 hold U, the array whose
  block k is the second stored value of point k; its other rows hold whatever they held. On grid row 1 the whole of
  it is U, and the output's block at a point is the third stored value of that point over U. The input windows'
  staging buffers hold their blocks at every point; the output's is idle along grid row 0 (handed back as found).
-/
import proofs.«148394_g17386027614455_cont_7to1_900_12_alg».proof.Proof.KI.Conds
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem N_eq : cfg0.N = 100 := N_0

/-- The grid's first point. -/
abbrev t0 : Fin cfg0.N := ⟨0, by rw [N_eq]; omega⟩

/-- T: what the first branch stores, from the blocks of X and W1 (each the whole array). -/
def Tarr (c : Dev nD) : Vec F S10000x128 .f32 := k0_pay1 (iblk m c 0 t0) (iblk m c 2 t0)

/-- Block t of U: what the second branch stores at point t, from the adjacency's block there, T, b1 and W2. -/
def Ublk (c : Dev nD) (t : Fin cfg0.N) : Vec F S200x64 .f32 := k0_pay2 (iblk m c 1 t) (Tarr m c) (iblk m c 3 t) (iblk m c 4 t)

/-- U: row r is row r % 200 of block r / 200. -/
def Uarr (c : Dev nD) : Vec F S10000x64 .f32 := fun y =>
  Ublk m c ⟨(y 0).val / 200, by have h : (y 0).val < 10000 := (y 0).isLt; rw [N_eq]; omega⟩
    (ValueIdx.ix2 (⟨(y 0).val % 200, Nat.mod_lt _ (by omega)⟩ : Fin 200) (⟨(y 1).val, (y 1).isLt⟩ : Fin 64))

/-- The output's block at point t: what the third branch stores there, from the adjacency's block, U and b2. -/
def Oblk (c : Dev nD) (t : Fin cfg0.N) : Vec F S200x64 .f32 := k0_pay3 (iblk m c 1 t) (Uarr m c) (iblk m c 5 t)

/-- The rows of the second scratch filled before point n. -/
def filled (n : ℕ) : ℕ := 200 * min n 50

/-- The region's invariant before point n: at entry both scratch buffers hold anything; afterwards the first holds T and
    the second agrees with U on its filled rows. -/
def PhiS (c : Dev nD) : (n : ℕ) → n ≤ cfg0.N → sProp 𝕄
  | 0, _ => Pipeline.ΦA spec0 c
  | n + 1, _ => iprop(iprop(owns (c : Thread nD τ) scT fullShare (Tarr m c) ∗ (∃ d, ⌜∀ y : S10000x64.Idx, (y 0).val < filled (n + 1) → d y = Uarr m c y⌝ ∗ owns (c : Thread nD τ) scU fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n + 1 ≤ cfg0.N) :
    PhiS m c (n + 1) hn = iprop(iprop(owns (c : Thread nD τ) scT fullShare (Tarr m c) ∗ (∃ d, ⌜∀ y : S10000x64.Idx, (y 0).val < filled (n + 1) → d y = Uarr m c y⌝ ∗ owns (c : Thread nD τ) scU fullShare d)) ∗ (∃ r, prngReg c r)) := rfl

theorem PhiS_pos (c : Dev nD) (n : ℕ) (h : n ≤ cfg0.N) (hz : n ≠ 0) :
    PhiS m c n h = iprop(iprop(owns (c : Thread nD τ) scT fullShare (Tarr m c) ∗ (∃ d, ⌜∀ y : S10000x64.Idx, (y 0).val < filled n → d y = Uarr m c y⌝ ∗ owns (c : Thread nD τ) scU fullShare d)) ∗ (∃ r, prngReg c r)) := by
  cases n with
  | zero => exact absurd rfl hz
  | succ n => rfl

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Oblk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = Oblk m c t := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

end Cert.KernelIdeal.Body

end
-- ==== Proof.KI.Fill.lean ====
/-
  Filling the second scratch one slice at a time. If a buffer agrees with U on the rows below 200 · t (t a point of grid
  row 0) and block t of U is stored through the 200-row slice at row offset 200 · t, the result agrees with U on the
  rows below 200 · (t + 1): inside the slice the stored block is read back, row r of the array being row r % 200 of
  block r / 200; outside it the buffer is unchanged. From point 50 on every row is filled.
-/
import proofs.«148394_g17386027614455_cont_7to1_900_12_alg».proof.Proof.KI.Data
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem filled_lt (n : ℕ) (h : n ≤ 50) : filled n = 200 * n := by unfold filled; rw [min_eq_left h]
theorem filled_ge (n : ℕ) (h : 50 ≤ n) : filled n = 10000 := by unfold filled; rw [min_eq_right h]

/-- Row r of U, column q, is entry (r % 200, q) of block r / 200: at the slice's own indices, block t itself. -/
theorem Uarr_slice (c : Dev nD) (t : Fin cfg0.N) (ht : t.val < 50)
    (inb : ∀ a, k0_off1 (grid0.coords t) a + S200x64.size a ≤ S10000x64.size a)
    (x : (Rect.unit (s := S10000x64) (k0_off1 (grid0.coords t)) S200x64.size inb).shape.Idx) :
    Uarr m c ((Rect.unit (s := S10000x64) (k0_off1 (grid0.coords t)) S200x64.size inb).emb x) = Ublk m c t x := by
  have ho0 := off_row t ht
  have ho1 := off_col t
  have hx0 : (x 0).val < 200 := (x 0).isLt
  have hx1 : (x 1).val < 64 := (x 1).isLt
  have e0 : (((Rect.unit (s := S10000x64) (k0_off1 (grid0.coords t)) S200x64.size inb).emb x) 0).val = 200 * t.val + (x 0).val := by
    rw [Rect.emb_apply]; simp only [Rect.off_unit, Rect.stride_unit, Nat.one_mul]; rw [ho0]
  have e1 : (((Rect.unit (s := S10000x64) (k0_off1 (grid0.coords t)) S200x64.size inb).emb x) 1).val = (x 1).val := by
    rw [Rect.emb_apply]; simp only [Rect.off_unit, Rect.stride_unit, Nat.one_mul]; rw [ho1, Nat.zero_add]
  unfold Uarr
  have et : (⟨(((Rect.unit (s := S10000x64) (k0_off1 (grid0.coords t)) S200x64.size inb).emb x) 0).val / 200,
      by have h : (((Rect.unit (s := S10000x64) (k0_off1 (grid0.coords t)) S200x64.size inb).emb x) 0).val < 10000 := (((Rect.unit (s := S10000x64) (k0_off1 (grid0.coords t)) S200x64.size inb).emb x) 0).isLt
         rw [N_eq]; omega⟩ : Fin cfg0.N) = t := Fin.ext (by show _ / 200 = t.val; rw [e0]; omega)
  have ex : (ValueIdx.ix2 (⟨(((Rect.unit (s := S10000x64) (k0_off1 (grid0.coords t)) S200x64.size inb).emb x) 0).val % 200, Nat.mod_lt _ (by omega)⟩ : Fin 200)
      (⟨(((Rect.unit (s := S10000x64) (k0_off1 (grid0.coords t)) S200x64.size inb).emb x) 1).val, (((Rect.unit (s := S10000x64) (k0_off1 (grid0.coords t)) S200x64.size inb).emb x) 1).isLt⟩ : Fin 64) : S200x64.Idx) = x :=
    funext fun a => Fin.ext (by
      match a with
      | ⟨0, _⟩ => show _ % 200 = (x 0).val; rw [e0]; omega
      | ⟨1, _⟩ => show _ = (x 1).val; exact e1)
  exact congrArg₂ (fun (a : Fin cfg0.N) (b : S200x64.Idx) => Ublk m c a b) et ex

/-- One more slice. -/
theorem fill_step (c : Dev nD) (t : Fin cfg0.N) (ht : t.val < 50) {sg : RefSig} {κ : Kind} {sp : Space}
    (v : View sg κ sp S10000x64 .f32) (f : v.ty.Contents (Elt F)) (d : Vec F S10000x64 .f32) (hf : v.read (Elt F) f = d)
    (hd : ∀ y : S10000x64.Idx, (y 0).val < filled t.val → d y = Uarr m c y)
    (inb : ∀ a, k0_off1 (grid0.coords t) a + S200x64.size a ≤ S10000x64.size a) :
    ∀ y : S10000x64.Idx, (y 0).val < filled (t.val + 1) →
      v.read (Elt F) (v.writes (Elt F) f [(⟨Rect.unit (s := S10000x64) (k0_off1 (grid0.coords t)) S200x64.size inb, Ublk m c t⟩ : View.Piece (Elt F) S10000x64 .f32)]) y = Uarr m c y := by
  intro y hy
  have ho0 := off_row t ht
  have ho1 := off_col t
  by_cases hm : y ∈ (Rect.unit (s := S10000x64) (k0_off1 (grid0.coords t)) S200x64.size inb).set
  · obtain ⟨x, rfl⟩ := (Rect.unit (s := S10000x64) (k0_off1 (grid0.coords t)) S200x64.size inb).exists_idx_of_mem hm
    rw [show (Rect.unit (s := S10000x64) (k0_off1 (grid0.coords t)) S200x64.size inb).idx x = (Rect.unit (s := S10000x64) (k0_off1 (grid0.coords t)) S200x64.size inb).emb x from rfl,
      View.read_writes_cons_emb]
    exact (Uarr_slice m c t ht inb x).symm
  · rw [View.read_writes_apply_of_forall_not_mem v f y _ (fun p hp => by rw [List.mem_singleton.mp hp]; exact hm), hf]
    refine hd y ?_
    rw [filled_lt _ (by omega)] at hy ⊢
    by_contra hlt
    refine hm (Rect.mem_set_unit.mpr fun a => ?_)
    match a with
    | ⟨0, _⟩ =>
      show k0_off1 (grid0.coords t) 0 ≤ (y 0).val ∧ (y 0).val < k0_off1 (grid0.coords t) 0 + 200
      rw [ho0]; omega
    | ⟨1, _⟩ =>
      have h1 : (y 1).val < 64 := (y 1).isLt
      show k0_off1 (grid0.coords t) 1 ≤ (y 1).val ∧ (y 1).val < k0_off1 (grid0.coords t) 1 + 64
      rw [ho1]; omega

/-- From point 50 on the buffer is U. -/
theorem full_of_filled (c : Dev nD) (n : ℕ) (hn : 50 ≤ n) (d : Vec F S10000x64 .f32)
    (hd : ∀ y : S10000x64.Idx, (y 0).val < filled n → d y = Uarr m c y) : d = Uarr m c :=
  funext fun y => hd y (by rw [filled_ge n hn]; exact (y 0).isLt)

end Cert.KernelIdeal.Body

end
-- ==== Proof.KI.Sound.lean ====
/-
  The kernel body at every grid point, against the pipeline's proof data. The point's case is read off its number: point 0
  takes the first two branches, points 1 … 49 the second, points 50 … 99 the third. In each case the run over its explicit
  stores applies: the input windows' staging buffers hold their blocks; the invariant hands the body the first scratch at
  T (at anything at point 0) and the second at contents agreeing with U on its filled rows; the stores' results are read
  back as T, as one more filled slice of U, or as the output's block; the output's staging buffer, idle along grid row 0, is
  handed back as found there.
-/
import proofs.«148394_g17386027614455_cont_7to1_900_12_alg».proof.Proof.KI.Pieces
import proofs.«148394_g17386027614455_cont_7to1_900_12_alg».proof.Proof.KI.Fill

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ]
  have hN : t.val < 100 := lt_of_lt_of_eq t.isLt N_eq
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [show (dats m 0 c).leavesExact 4 t = owns (c : Thread nD τ) (ms4 t) fullShare ((dats m 0 c).after 4 t) from by
    unfold Dat.leavesExact; rw [live4 t], after_4]
  rw [show (dats m 0 c).leavesExact 5 t = owns (c : Thread nD τ) (ms5 t) fullShare ((dats m 0 c).after 5 t) from by
    unfold Dat.leavesExact; rw [live5 t], after_5]
  by_cases h1 : t.val < 50
  · rw [Dat.leavesExact_idle (dats m 0 c) 6 t (idle6_lo t h1) (flush6_lo t h1)]
    by_cases hz : t.val = 0
    · obtain rfl : t = t0 := Fin.ext hz
      rw [PhiS_castSucc m c t0, PhiS_zero m c _ _ rfl, PhiA_eq]
      iintro ⟨⟨⟨HS0, ⟨%dU, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runA_spec c (grid0.coords t0) _ _ _ _ _ _ _ _ _ _ _ _ _ _ _ _ _ _ ((condT_iff t0).mpr rfl) ((condU_iff t0).mpr h1) (fun h => absurd ((condO_iff t0).mp h) (by omega)) (iblk m c 0 t0) (iblk m c 1 t0) (iblk m c 2 t0) (iblk m c 3 t0) (iblk m c 4 t0) (iblk m c 5 t0) ((dats m 0 c).before 6 t0 d6) dU Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%eT, HS0⟩, ⟨%eU, %heU, HS1⟩⟩
      isplitl [HS0 HS1 Hg]
      · isplitl [HS0 HS1]
        · isplitl [HS0]
          · unfold owns; iexists _; isplitr
            swap; · iexact HS0
            ipureintro; exact read_whole_store _ _ hz2 _ _
          · iexists _; isplitr
            swap
            · unfold owns; iexists _; isplitr
              swap; · iexact HS1
              ipureintro; rfl
            ipureintro
            exact fill_step m c t0 h1 _ eU dU heU (fun y hy => absurd hy (by rw [filled_lt 0 (by omega)]; omega)) _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨⟨⟨HS0, ⟨%dU, %hdU, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runB_spec c (grid0.coords t) _ _ _ _ _ _ _ _ _ _ _ _ _ _ _ _ _ _ (fun h => hz ((condT_iff t).mp h)) ((condU_iff t).mpr h1) (fun h => absurd ((condO_iff t).mp h) (by omega)) (iblk m c 0 t) (iblk m c 1 t) (iblk m c 2 t) (iblk m c 3 t) (iblk m c 4 t) (iblk m c 5 t) ((dats m 0 c).before 6 t d6) (Tarr m c) dU Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, ⟨%eU, %heU, HS1⟩⟩
      isplitl [HS0 HS1 Hg]
      · isplitl [HS0 HS1]
        · isplitl [HS0]; · iexact HS0
          iexists _; isplitr
          swap
          · unfold owns; iexists _; isplitr
            swap; · iexact HS1
            ipureintro; rfl
          ipureintro
          exact fill_step m c t h1 _ eU dU heU hdU _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have h2 : 50 ≤ t.val := by omega
    have hz : t.val ≠ 0 := by omega
    rw [show (dats m 0 c).leavesExact 6 t = owns (c : Thread nD τ) (ms6 t) fullShare ((dats m 0 c).after 6 t) from by
      unfold Dat.leavesExact; rw [idle6_hi t h2], after_6]
    rw [PhiS_castSucc m c t, PhiS_pos m c _ _ hz]
    iintro ⟨⟨⟨HS0, ⟨%dU, %hdU, HS1⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl : dU = Uarr m c := full_of_filled m c t.val h2 dU hdU
    iapply (runC_spec c (grid0.coords t) _ _ _ _ _ _ _ _ _ _ _ _ _ _ _ _ _ _ (fun h => hz ((condT_iff t).mp h)) (fun h => h1 ((condU_iff t).mp h)) ((condO_iff t).mpr h2) (iblk m c 0 t) (iblk m c 1 t) (iblk m c 2 t) (iblk m c 3 t) (iblk m c 4 t) (iblk m c 5 t) (Tarr m c) (Uarr m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%e6, H6⟩, HS0, HS1⟩
    isplitl [HS0 HS1 Hg]
    · isplitl [HS0 HS1]
      · isplitl [HS0]; · iexact HS0
        iexists _; isplitr
        swap; · iexact HS1
        ipureintro; intro y _; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact read_whole_store _ _ hz2 _ _

/-- The body obligation of the pipeline's proof data. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: what the scratch buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last, N_eq]; omega), PhiA_eq]
  iintro ⟨⟨HS0, ⟨%d, -, HS1⟩⟩, Hg⟩
  isplitl [HS0 HS1]
  · isplitl [HS0]
    · iexists _; iexact HS0
    iexists _; iexact HS1
  iexact Hg

end Cert.KernelIdeal.Body

end
-- ==== Proof.KI.Main.lean ====
/-
  The whole run: from any memory with zero counters every weakly fair execution of the program terminates, nothing faulting,
  with every windowed array at what the write-backs of the proof data leave there and every other buffer as the region
  found it; in particular the six argument arrays end unchanged.
-/
import proofs.«148394_g17386027614455_cont_7to1_900_12_alg».proof.Proof.KI.Sound

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

set_option backward.isDefEq.respectTransparency.types false in
/-- The run to the pipeline's post. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.LibSageSpec.lean ====
/-
  Dense layers at the extended reals, index by index. A layer's entry (p, q) is a sum over the contracted axis of a row
  of the left matrix against a column of the right one, plus a bias read at the column; a SAGE layer adds two such sums
  (the aggregated neighbours against one weight matrix, the node's own features against another) before the bias. The
  leaky activation is spelt exactly as both programs spell it: a select on `s ≥ 0` between `s` and a constant times `s`.
  A matrix product whose dimension numbers are the plain "rows by columns" ones (contract axis 1 of the left operand with
  axis 0 of the right) reads at (p, q) as that sum, on the MXU into a zero accumulator and on the host alike.
-/
import Idealize.ShloMosaic.PureOps.Ideal
import Idealize.ShloMosaic.PureOps.Ideal.Laws
import Idealize.ShloMosaic.Lib.ValueIdx

noncomputable section

open scoped BigOperators

namespace Idealize.ShloMosaic.SageSpec

open Idealize.ShloMosaic Idealize.ShloMosaic.ValueIdx

/-- An [n × m] matrix of extended reals. -/
abbrev Mat (n m : Nat) : Type := (⟨2, ![n, m]⟩ : Shape).Idx → EReal

/-- Row `p` of `x` against column `q` of `W`. -/
def rowDot {n k m : Nat} (x : Mat n k) (W : Mat k m) (p : Fin n) (q : Fin m) : EReal :=
  ∑ j : Fin k, x (ix2 p j) * W (ix2 j q)

/-- The leaky activation as printed: `s` where `s ≥ 0`, else the slope constant (the f32 nearest 0.01) times `s`. -/
def leakyAt (s : EReal) : EReal :=
  Scalar.select (FloatOps.cmpf (F := Ideal) (φ := .f32) .oge s (Ideal.ofBits .f32 0x00000000#32)) s
    (FloatOps.mulf (F := Ideal) (φ := .f32) (Ideal.ofBits .f32 0x3C23D70A#32) s)

/-- A linear layer: `x · W + b`. -/
def linF {n k m : Nat} (x : Mat n k) (W : Mat k m) (b : Fin m → EReal) : Mat n m :=
  fun i => rowDot x W (i 0) (i 1) + b (i 1)

/-- A SAGE layer: `act (agg · Wl + h · Wr + b)`, the sums grouped as the kernel groups them. -/
def sageF {n k m : Nat} (act : EReal → EReal) (agg h : Mat n k) (Wl Wr : Mat k m) (b : Fin m → EReal) : Mat n m :=
  fun i => act (rowDot agg Wl (i 0) (i 1) + rowDot h Wr (i 0) (i 1) + b (i 1))

/-- The reference groups the bias with the first product: the same extended real (addition of extended reals is
    commutative and associative, infinities included). -/
theorem add_bias_comm (a b c : EReal) : a + c + b = a + b + c := add_right_comm a c b

/-- Dimension numbers of a plain [n × k] · [k × m] product: one contracted axis of extent `k`, the left operand read at
    (row, κ), the right at (κ, column). -/
structure PlainDot {n k m : Nat} (d : DotDims ⟨2, ![n, k]⟩ ⟨2, ![k, m]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx), (d.lhsIdx i q 0).val = (i 0).val
  l1 : ∀ (i : (⟨2, ![n, m]⟩ : Shape).Idx) (q : d.contr.Idx) (h : 0 < d.contr.rank), (d.lhsIdx i q 1).val = (q ⟨0, h⟩).val
  r0 : ∀ (i : (⟨2, ![n, m]⟩ : Shape).Idx) (q : d.contr.Idx) (h : 0 < d.contr.rank), (d.rhsIdx i q 0).val = (q ⟨0, h⟩).val
  r1 : ∀ (i : (⟨2, ![n, m]⟩ : Shape).Idx) (q : d.contr.Idx), (d.rhsIdx i q 1).val = (i 1).val

section
variable {n k m : Nat} {d : DotDims ⟨2, ![n, k]⟩ ⟨2, ![k, m]⟩ ⟨2, ![n, m]⟩}

/-- The contracted sum of a plain product, re-indexed by the contracted axis's coordinate. -/
theorem PlainDot.sum_eq (hd : PlainDot d) (a : Mat n k) (w : Mat k m) (j : (⟨2, ![n, m]⟩ : Shape).Idx) :
    ∑ q : d.contr.Idx, a (d.lhsIdx j q) * w (d.rhsIdx j q) = rowDot a w (j 0) (j 1) := by
  have h0 : 0 < d.contr.rank := by rw [hd.rank]; exact Nat.one_pos
  unfold rowDot
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 (j 0) κ := funext fun a => Fin.ext (by
    match a with
    | ⟨0, _⟩ => exact hd.l0 _ _
    | ⟨1, _⟩ => exact (hd.l1 _ _ h0).trans hk)
  have er : d.rhsIdx j ((contrEquiv1 d k hd.rank (hd.size _)).symm κ) = ix2 κ (j 1) := funext fun a => Fin.ext (by
    match a with
    | ⟨0, _⟩ => exact (hd.r0 _ _ h0).trans hk
    | ⟨1, _⟩ => exact hd.r1 _ _)
  rw [el, er] <;> rfl

/-- The MXU's product into a zero accumulator, at (p, q): row `p` against column `q`. Whatever the operands' formats:
    at the extended reals a change of format is the identity. -/
theorem matmul_zero_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    FloatOps.matmul d prec a w (constant ⟨2, ![n, m]⟩ .f32 0x00000000#32) j = rowDot (fun i => a i) (fun i => w i) (j 0) (j 1) := by
  rw [Ideal.matmul_constant_zero_apply]
  exact hd.sum_eq (fun i => a i) (fun i => w i) j

/-- The host's `dot_general`, at (p, q): the same sum. -/
theorem dotGeneral_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    Host.dotGeneral d prec a w j = rowDot (fun i => a i) (fun i => w i) (j 0) (j 1) := by
  simp only [Host.dotGeneral]
  rw [Ideal.dotGeneral_apply]
  exact hd.sum_eq (fun i => a i) (fun i => w i) j

end

end Idealize.ShloMosaic.SageSpec

end
-- ==== Proof.LibFiniteSums.lean ====
import Mathlib.Data.EReal.Basic
import Mathlib.Data.EReal.Operations
import Mathlib.Data.EReal.Inv
import Mathlib.Analysis.Real.Sqrt
import Mathlib.Algebra.BigOperators.Group.Finset.Basic
import Mathlib.Algebra.BigOperators.Group.Finset.Piecewise
import Mathlib.Algebra.Order.BigOperators.Group.Finset
import Mathlib.Data.Fintype.BigOperators
import Mathlib.Logic.Equiv.Fin.Basic
import Idealize.ShloMosaic.PureOps.Ideal
import Idealize.ShloMosaic.PureOps.Ideal.Laws
import Idealize.ShloMosaic.Lib.ValueIdx

/-!
# Finite sums of finite extended reals

The extended reals are not a ring: a product does not distribute over a sum once an infinity is among the
terms. Where every term is a real number the usual laws hold. This file names that side condition
(`IsReal`), shows it closed under the field operations met in a normalised graph convolution (sum,
difference, product, maximum, finite sums, division by a positive real, inverse square root of a positive
real), and proves the regrouping laws of finite sums under it. It also splits a sum over a range of rows
into the sums over its tiles, turns a mask-weighted sum into a sum over the masked set, evaluates the few
single-precision words such a program spells, and reads a small index word as its signed value.
-/

noncomputable section

namespace Cert.LibFinite

open Idealize.ShloMosaic

/-! ### Real-valued extended reals -/

/-- An extended real is real when it is neither of the two infinities. -/
def IsReal (a : EReal) : Prop := a ≠ ⊤ ∧ a ≠ ⊥

/-- The cast of a real number is real. -/
theorem isReal_coe (r : ℝ) : IsReal (r : EReal) := ⟨EReal.coe_ne_top r, EReal.coe_ne_bot r⟩

/-- Zero is real. -/
theorem isReal_zero : IsReal (0 : EReal) := isReal_coe 0

/-- One is real. -/
theorem isReal_one : IsReal (1 : EReal) := isReal_coe 1

/-- A real extended real is the cast of some real number. -/
theorem IsReal.exists_coe {a : EReal} (ha : IsReal a) : ∃ r : ℝ, a = (r : EReal) :=
  ⟨a.toReal, (EReal.coe_toReal ha.1 ha.2).symm⟩

/-- The sum of two reals is real. -/
theorem IsReal.add {a b : EReal} (ha : IsReal a) (hb : IsReal b) : IsReal (a + b) := by
  obtain ⟨x, rfl⟩ := ha.exists_coe
  obtain ⟨y, rfl⟩ := hb.exists_coe
  rw [← EReal.coe_add]; exact isReal_coe _

/-- The difference of two reals is real. -/
theorem IsReal.sub {a b : EReal} (ha : IsReal a) (hb : IsReal b) : IsReal (a - b) := by
  obtain ⟨x, rfl⟩ := ha.exists_coe
  obtain ⟨y, rfl⟩ := hb.exists_coe
  rw [← EReal.coe_sub]; exact isReal_coe _

/-- The product of two reals is real. -/
theorem IsReal.mul {a b : EReal} (ha : IsReal a) (hb : IsReal b) : IsReal (a * b) := by
  obtain ⟨x, rfl⟩ := ha.exists_coe
  obtain ⟨y, rfl⟩ := hb.exists_coe
  rw [← EReal.coe_mul]; exact isReal_coe _

/-- The negative of a real is real. -/
theorem IsReal.neg {a : EReal} (ha : IsReal a) : IsReal (-a) := by
  obtain ⟨x, rfl⟩ := ha.exists_coe
  rw [← EReal.coe_neg]; exact isReal_coe _

/-- The larger of two reals is one of them, hence real. -/
theorem IsReal.max {a b : EReal} (ha : IsReal a) (hb : IsReal b) : IsReal (max a b) := by
  rcases max_choice a b with h | h <;> rw [h] <;> assumption

/-- A finite sum of reals is real. -/
theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The cast of a finite sum of real numbers is the sum of the casts. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-! ### The ring laws among reals -/

/-- Adding zero on the left changes nothing. -/
theorem zero_add_ereal (a : EReal) : 0 + a = a := zero_add a

/-- A product with zero on the right is zero, at the infinities too. -/
theorem mul_zero_ereal (a : EReal) : a * 0 = 0 := mul_zero a

/-- Adding zero in front of a finite sum changes nothing. -/
theorem zero_add_sum {ι : Type*} (s : Finset ι) (f : ι → EReal) : 0 + ∑ i ∈ s, f i = ∑ i ∈ s, f i :=
  zero_add _

/-- A real minus itself is zero (false at the infinities, where the difference is an infinity). -/
theorem sub_self_of_isReal (a : EReal) (ha : IsReal a) : a - a = 0 := by
  obtain ⟨x, rfl⟩ := ha.exists_coe
  rw [← EReal.coe_sub, sub_self, EReal.coe_zero]

/-- Among reals a product distributes over a sum of two. -/
theorem mul_add_of_isReal (a : EReal) (ha : IsReal a) (b c : EReal) (hb : IsReal b) (hc : IsReal c) :
    a * (b + c) = a * b + a * c := by
  obtain ⟨x, rfl⟩ := ha.exists_coe
  obtain ⟨y, rfl⟩ := hb.exists_coe
  obtain ⟨z, rfl⟩ := hc.exists_coe
  rw [← EReal.coe_add, ← EReal.coe_mul, ← EReal.coe_mul, ← EReal.coe_mul, ← EReal.coe_add, mul_add]

/-- Among reals a product distributes over a finite sum. -/
theorem mul_sum_of_isReal (a : EReal) (ha : IsReal a) {ι : Type*} (s : Finset ι) (f : ι → EReal)
    (hf : ∀ i ∈ s, IsReal (f i)) : a * ∑ i ∈ s, f i = ∑ i ∈ s, a * f i := by
  classical
  induction s using Finset.induction_on with
  | empty => simp
  | insert b s hb ih =>
    have hs : ∀ i ∈ s, IsReal (f i) := fun i hi => hf i (Finset.mem_insert_of_mem hi)
    rw [Finset.sum_insert hb, Finset.sum_insert hb, ← ih hs]
    exact mul_add_of_isReal a ha _ _ (hf b (Finset.mem_insert_self b s)) (isReal_sum s f hs)

/-- A row's inverse-root degree `dn`, applied to the sum of the row's incoming messages `A e * dv e`, may be
    taken inside the sum and attached to each message's own inverse-root degree `dv e`. -/
theorem agg_regroup (dn : EReal) (hdn : IsReal dn) {ι : Type*} (s : Finset ι) (A dv : ι → EReal)
    (hA : ∀ e ∈ s, IsReal (A e)) (hd : ∀ e ∈ s, IsReal (dv e)) :
    dn * (0 + ∑ e ∈ s, A e * dv e) = 0 + ∑ e ∈ s, A e * (dv e * dn) := by
  rw [zero_add, zero_add, mul_sum_of_isReal dn hdn s _ fun e he => (hA e he).mul (hd e he)]
  refine Finset.sum_congr rfl fun e _ => ?_
  rw [mul_left_comm, mul_comm dn]

/-! ### Inverse square root, quotient by a positive real, squares, counts -/

/-- The inverse square root of a positive real is a positive real. -/
theorem isReal_rsqrt (a : EReal) (ha : IsReal a) (hpos : 0 < a) :
    IsReal (Ideal.rsqrt a) ∧ 0 < Ideal.rsqrt a := by
  obtain ⟨x, rfl⟩ := ha.exists_coe
  have hx : 0 < x := EReal.coe_pos.mp hpos
  rw [Ideal.rsqrt_coe, if_neg (not_lt.mpr hx.le), if_neg hx.ne']
  exact ⟨isReal_coe _, EReal.coe_pos.mpr (inv_pos.mpr (Real.sqrt_pos.mpr hx))⟩

/-- A real divided by a positive real is real, and nonnegative when the numerator is. Both the host's
    quotient and the kernel's are this quotient. -/
theorem isReal_div_pos (a : EReal) (ha : IsReal a) (r : ℝ) (hr : 0 < r) :
    IsReal (Ideal.div a (r : EReal)) ∧ (0 ≤ a → 0 ≤ Ideal.div a (r : EReal)) := by
  obtain ⟨x, rfl⟩ := ha.exists_coe
  rw [Ideal.div_coe hr.ne', ← EReal.coe_mul]
  refine ⟨isReal_coe _, fun h => ?_⟩
  have hx : 0 ≤ x := EReal.coe_nonneg.mp h
  exact EReal.coe_nonneg.mpr (mul_nonneg hx (by positivity))

/-- A finite sum of squares of reals is nonnegative. -/
theorem sum_sq_nonneg {ι : Type*} (s : Finset ι) (f : ι → EReal) (hf : ∀ i ∈ s, IsReal (f i)) :
    0 ≤ ∑ i ∈ s, f i * f i := by
  refine Finset.sum_nonneg fun i hi => ?_
  obtain ⟨x, hx⟩ := (hf i hi).exists_coe
  rw [hx, ← EReal.coe_mul]
  exact EReal.coe_nonneg.mpr (mul_self_nonneg x)

/-- Counting a nonempty finite set by adding a one per member gives a real number, at least one. -/
theorem count_pos {ι : Type*} (s : Finset ι) (hs : s.Nonempty) :
    IsReal (0 + ∑ _e ∈ s, (1 : EReal)) ∧ 1 ≤ 0 + ∑ _e ∈ s, (1 : EReal) := by
  have h1 : (∑ _e ∈ s, (1 : EReal)) = ((s.card : ℝ) : EReal) := by
    rw [Finset.sum_const, nsmul_one, ← EReal.coe_coe_eq_natCast]
  have hc : (1 : ℝ) ≤ (s.card : ℝ) := by exact_mod_cast Finset.card_pos.mpr hs
  rw [zero_add, h1]
  exact ⟨isReal_coe _, by rw [← EReal.coe_one]; exact EReal.coe_le_coe_iff.mpr hc⟩

/-! ### A sum over rows, tile by tile -/

/-- Three mixed-radix digits `s < a`, `j < b`, `r < c` name a number below `a * b * c`. -/
theorem digits_lt {a b c : ℕ} (s : Fin a) (j : Fin b) (r : Fin c) :
    (s.val * b + j.val) * c + r.val < a * b * c := by
  have h1 : s.val * b + j.val + 1 ≤ a * b :=
    calc s.val * b + j.val + 1 ≤ s.val * b + b := Nat.add_le_add_left j.isLt _
      _ = (s.val + 1) * b := (Nat.succ_mul _ _).symm
      _ ≤ a * b := Nat.mul_le_mul_right b s.isLt
  calc (s.val * b + j.val) * c + r.val < (s.val * b + j.val) * c + c := Nat.add_lt_add_left r.isLt _
    _ = (s.val * b + j.val + 1) * c := (Nat.succ_mul _ _).symm
    _ ≤ a * b * c := Nat.mul_le_mul_right c h1

/-- A sum over `a * b * c` consecutive indices is the triple sum over the three mixed-radix digits of
    the index: the outer digit below `a`, the middle below `b`, the inner below `c`. -/
theorem sum_fin_mul_mul {M : Type*} [AddCommMonoid M] (a b c : ℕ) (f : Fin (a * b * c) → M) :
    ∑ n, f n = ∑ s : Fin a, ∑ j : Fin b, ∑ r : Fin c, f ⟨(s.val * b + j.val) * c + r.val, digits_lt s j r⟩ :=
  calc ∑ n, f n
      = ∑ p : Fin (a * b) × Fin c, f (finProdFinEquiv p) := (Equiv.sum_comp finProdFinEquiv f).symm
    _ = ∑ p : Fin (a * b), ∑ r : Fin c, f (finProdFinEquiv (p, r)) := Fintype.sum_prod_type _
    _ = ∑ q : Fin a × Fin b, ∑ r : Fin c, f (finProdFinEquiv (finProdFinEquiv q, r)) :=
        (Equiv.sum_comp finProdFinEquiv fun p : Fin (a * b) => ∑ r : Fin c, f (finProdFinEquiv (p, r))).symm
    _ = ∑ s : Fin a, ∑ j : Fin b, ∑ r : Fin c, f (finProdFinEquiv (finProdFinEquiv (s, j), r)) :=
        Fintype.sum_prod_type _
    _ = _ := by
        refine Finset.sum_congr rfl fun s _ => Finset.sum_congr rfl fun j _ => Finset.sum_congr rfl fun r _ => ?_
        congr 1
        apply Fin.ext
        simp only [finProdFinEquiv_apply_val]
        ring

/-- A sum over 100000 rows, taken as 2 slices of 10 blocks of 5000 rows. -/
theorem sum_rows_tiled {M : Type*} [AddCommMonoid M] (f : Fin 100000 → M) :
    ∑ n, f n = ∑ s : Fin 2, ∑ j : Fin 10, ∑ r : Fin 5000,
      f ⟨(s.val * 10 + j.val) * 5000 + r.val, by omega⟩ :=
  sum_fin_mul_mul 2 10 5000 f

/-- A sum over 100000 rows, taken as 2 slices of 50 blocks of 1000 rows. -/
theorem sum_rows_tiled_pool {M : Type*} [AddCommMonoid M] (f : Fin 100000 → M) :
    ∑ n, f n = ∑ s : Fin 2, ∑ j : Fin 50, ∑ r : Fin 1000,
      f ⟨(s.val * 50 + j.val) * 1000 + r.val, by omega⟩ :=
  sum_fin_mul_mul 2 50 1000 f

/-! ### A mask-weighted sum -/

/-- Weighting each term by the 0/1 indicator of a predicate and summing over everything is summing over
    the members that satisfy the predicate. -/
theorem sum_mask_eq_sum_filter {ι : Type*} [Fintype ι] (p : ι → Prop) [DecidablePred p] (x : ι → EReal) :
    ∑ n, (if p n then (1 : EReal) else 0) * x n = ∑ n ∈ Finset.univ.filter p, x n := by
  rw [Finset.sum_filter]
  refine Finset.sum_congr rfl fun n _ => ?_
  split_ifs <;> simp

/-! ### The single-precision words, as the extended reals they denote -/

/-- The word of `100000.0` denotes the real `100000`. -/
theorem ofBits_100000 : Ideal.ofBits .f32 0x47C35000#32 = ((100000 : ℝ) : EReal) := by
  simp [Ideal.ofBits, Ideal.ieee, -EReal.coe_mul]; norm_num

/-- The word of `1.0` denotes `1`. -/
theorem ofBits_one : Ideal.ofBits .f32 0x3F800000#32 = 1 := by
  simp [Ideal.ofBits, Ideal.ieee, -EReal.coe_mul]; norm_num

/-- The word of `+0.0` denotes `0`. -/
theorem ofBits_zero : Ideal.ofBits .f32 0x00000000#32 = 0 := Ideal.ofBits_zero_f32

/-- The word of the epsilon added under the square root denotes the dyadic `10995116 · 2⁻⁴⁰`. -/
theorem ofBits_eps_eq :
    Ideal.ofBits .f32 0x3727C5AC#32 = (((10995116 : ℝ) * (2 : ℝ) ^ (-40 : ℤ) : ℝ) : EReal) := by
  simp [Ideal.ofBits, Ideal.ieee, -EReal.coe_mul]

/-- The word of the epsilon added under the square root denotes a positive real. -/
theorem ofBits_eps :
    0 < Ideal.ofBits .f32 0x3727C5AC#32 ∧ IsReal (Ideal.ofBits .f32 0x3727C5AC#32) := by
  rw [ofBits_eps_eq]
  exact ⟨EReal.coe_pos.mpr (by positivity), isReal_coe _⟩

/-! ### A small index word and its signed value -/

/-- A 32-bit word equals the word of a number below 1024 exactly when its signed value is that number. -/
theorem toInt_ofNat_eq_iff (b : BitVec 32) (g : Nat) (hg : g < 1024) :
    b = BitVec.ofNat 32 g ↔ b.toInt = (g : ℤ) := by
  have hv : (BitVec.ofNat 32 g).toInt = (g : ℤ) := by
    rw [BitVec.toInt_eq_msb_cond,
      BitVec.msb_eq_false_iff_two_mul_lt.mpr (by simp [BitVec.toNat_ofNat]; omega)]
    simp [BitVec.toNat_ofNat]; omega
  exact ⟨fun h => h ▸ hv, fun h => BitVec.eq_of_toInt_eq (h.trans hv.symm)⟩

end Cert.LibFinite

end
-- ==== Proof.Spec.lean ====
/-
  A two-layer graph convolution followed by a row-wise log-softmax, at the extended reals, index by index.

  With A the [n × n] adjacency, X the [n × f] features, W1 the [h × f] and W2 the [o × h] weights (each used
  transposed) and b1, b2 the biases, the reference groups each layer as ((A · X) · W1ᵀ) and ((A · H) · W2ᵀ), the
  kernel as (A · (X · W1ᵀ)) and (A · (H · W2ᵀ)). Every sum is a plain row-by-column sum over the contracted axis.
  The two groupings agree when every entry is a real number: then each product is a finite sum of reals, and a real
  factor moves across a finite sum. At an infinite entry the two may differ, so the law is stated under finiteness.
-/
import Idealize.ShloMosaic.PureOps.Ideal
import Idealize.ShloMosaic.PureOps.Ideal.Laws
import Idealize.ShloMosaic.Lib.ValueIdx
import proofs.«148394_g17386027614455_cont_7to1_900_12_alg».proof.Proof.LibSageSpec
import proofs.«148394_g17386027614455_cont_7to1_900_12_alg».proof.Proof.LibFiniteSums

noncomputable section

open scoped BigOperators

namespace Cert.Spec

open Idealize.ShloMosaic Idealize.ShloMosaic.ValueIdx Idealize.ShloMosaic.SageSpec

/-- The zero word both programs print. -/
def zeroW : EReal := Ideal.ofBits .f32 0x00000000#32
/-- The word of minus infinity, the row maximum's starting value in both programs. -/
def negInfW : EReal := Ideal.ofBits .f32 0xFF800000#32

/-- Neither infinity. -/
def Fin' (x : EReal) : Prop := x ≠ ⊤ ∧ x ≠ ⊥

/-- A rank-1 array as a function of its one coordinate. -/
def vec1 {n : Nat} (b : (⟨1, ![n]⟩ : Shape).Idx → EReal) : Fin n → EReal := fun j => b (ix1 j)

/-- A matrix read transposed. -/
def tr {n m : Nat} (W : Mat n m) : Mat m n := fun i => W (ix2 (i 1) (i 0))

/-- The clamp at zero as printed: the maximum with the zero word. -/
def relu0 (s : EReal) : EReal := max s zeroW

/-- The plain product of two matrices. -/
def mm {n k m : Nat} (a : Mat n k) (b : Mat k m) : Mat n m := fun j => rowDot a b (j 0) (j 1)

/-! ## The reference's grouping -/

/-- relu ((A · X) · W1ᵀ + b1) -/
def refHidden {n f h : Nat} (A : Mat n n) (X : Mat n f) (W1 : Mat h f) (b1 : Fin h → EReal) : Mat n h :=
  fun i => relu0 (rowDot (mm A X) (tr W1) (i 0) (i 1) + b1 (i 1))

/-- (A · H) · W2ᵀ + b2 -/
def refLogits {n h o : Nat} (A : Mat n n) (H : Mat n h) (W2 : Mat o h) (b2 : Fin o → EReal) : Mat n o :=
  fun i => rowDot (mm A H) (tr W2) (i 0) (i 1) + b2 (i 1)

/-! ## The kernel's grouping -/

/-- X · W1ᵀ, computed once. -/
def kerT {n f h : Nat} (X : Mat n f) (W1 : Mat h f) : Mat n h := mm X (tr W1)

/-- relu (A · T + b1) -/
def kerHidden {n h : Nat} (A : Mat n n) (T : Mat n h) (b1 : Fin h → EReal) : Mat n h :=
  fun i => relu0 (rowDot A T (i 0) (i 1) + b1 (i 1))

/-- H · W2ᵀ -/
def kerU {n h o : Nat} (H : Mat n h) (W2 : Mat o h) : Mat n o := mm H (tr W2)

/-- A · U + b2 -/
def kerLogits {n o : Nat} (A : Mat n n) (U : Mat n o) (b2 : Fin o → EReal) : Mat n o :=
  fun i => rowDot A U (i 0) (i 1) + b2 (i 1)

/-! ## The row-wise log-softmax, as both programs compute it -/

/-- The maximum of a row, folded from minus infinity. -/
def rowMax {o : Nat} (z : Fin o → EReal) : EReal := Finset.univ.fold max negInfW z

/-- (z q − max z) − log (∑ₖ exp (z k − max z)). -/
def logSoftmaxRow {o : Nat} (z : Fin o → EReal) (q : Fin o) : EReal :=
  (z q - rowMax z) - Ideal.log (∑ k : Fin o, Ideal.exp (z k - rowMax z))

/-- The log-softmax of every row of a matrix. -/
def logSoftmax {n o : Nat} (Z : Mat n o) : Mat n o :=
  fun i => logSoftmaxRow (fun q => Z (ix2 (i 0) q)) (i 1)

/-- The whole function, in the reference's grouping. -/
def refOut {n f h o : Nat} (A : Mat n n) (X : Mat n f) (W1 : Mat h f) (b1 : Fin h → EReal) (W2 : Mat o h) (b2 : Fin o → EReal) : Mat n o :=
  logSoftmax (refLogits A (refHidden A X W1 b1) W2 b2)

/-- The whole function, in the kernel's grouping. -/
def kerOut {n f h o : Nat} (A : Mat n n) (X : Mat n f) (W1 : Mat h f) (b1 : Fin h → EReal) (W2 : Mat o h) (b2 : Fin o → EReal) : Mat n o :=
  logSoftmax (kerLogits A (kerU (kerHidden A (kerT X W1) b1) W2) b2)

/-! ## The two groupings agree on finite entries -/

/-- Matrix product is associative on real entries: row p of (a · b) against column q of c is row p of a against
    column q of (b · c). -/
theorem rowDot_assoc {n k l m : Nat} (a : Mat n k) (b : Mat k l) (c : Mat l m)
    (ha : ∀ i, Fin' (a i)) (hb : ∀ i, Fin' (b i)) (hc : ∀ i, Fin' (c i)) (p : Fin n) (q : Fin m) :
    rowDot (mm a b) c p q = rowDot a (mm b c) p q := by
  have hA : ∀ i, Cert.LibFinite.IsReal (a i) := ha
  have hB : ∀ i, Cert.LibFinite.IsReal (b i) := hb
  have hC : ∀ i, Cert.LibFinite.IsReal (c i) := hc
  show (∑ j : Fin l, (∑ i : Fin k, a (ix2 p i) * b (ix2 i j)) * c (ix2 j q))
      = ∑ i : Fin k, a (ix2 p i) * ∑ j : Fin l, b (ix2 i j) * c (ix2 j q)
  -- the left side, with the factor c (j, q) taken inside the inner sum
  have hL : ∀ j : Fin l, (∑ i : Fin k, a (ix2 p i) * b (ix2 i j)) * c (ix2 j q)
      = ∑ i : Fin k, a (ix2 p i) * (b (ix2 i j) * c (ix2 j q)) := by
    intro j
    rw [mul_comm, Cert.LibFinite.mul_sum_of_isReal _ (hC _) _ _ (fun i _ => (hA _).mul (hB _))]
    refine Finset.sum_congr rfl fun i _ => ?_
    rw [mul_comm, mul_assoc]
  -- the right side, with the factor a (p, i) taken inside the inner sum
  have hR : ∀ i : Fin k, a (ix2 p i) * ∑ j : Fin l, b (ix2 i j) * c (ix2 j q)
      = ∑ j : Fin l, a (ix2 p i) * (b (ix2 i j) * c (ix2 j q)) :=
    fun i => Cert.LibFinite.mul_sum_of_isReal _ (hA _) _ _ (fun j _ => (hB _).mul (hC _))
  rw [Finset.sum_congr rfl (fun j _ => hL j), Finset.sum_congr rfl (fun i _ => hR i)]
  exact Finset.sum_comm

/-- The clamped hidden layer has real entries when its inputs do. -/
theorem kerHidden_fin {n h : Nat} (A : Mat n n) (T : Mat n h) (b1 : Fin h → EReal)
    (hA : ∀ i, Fin' (A i)) (hT : ∀ i, Fin' (T i)) (hb : ∀ j, Fin' (b1 j)) (i) : Fin' (kerHidden A T b1 i) := by
  have hA' : ∀ i, Cert.LibFinite.IsReal (A i) := hA
  have hT' : ∀ i, Cert.LibFinite.IsReal (T i) := hT
  have hb' : ∀ j, Cert.LibFinite.IsReal (b1 j) := hb
  -- the zero word is the real number 0
  have hz : Cert.LibFinite.IsReal zeroW := by
    unfold zeroW; rw [Ideal.ofBits_zero_f32]; exact Cert.LibFinite.isReal_zero
  show Cert.LibFinite.IsReal (max ((∑ j : Fin n, A (ix2 (i 0) j) * T (ix2 j (i 1))) + b1 (i 1)) zeroW)
  exact ((Cert.LibFinite.isReal_sum _ _ fun j _ => (hA' _).mul (hT' _)).add (hb' _)).max hz

/-- A product of matrices with real entries has real entries. -/
theorem mm_fin {n k m : Nat} (a : Mat n k) (b : Mat k m) (ha : ∀ i, Fin' (a i)) (hb : ∀ i, Fin' (b i)) (i) :
    Fin' (mm a b i) := by
  have hA : ∀ i, Cert.LibFinite.IsReal (a i) := ha
  have hB : ∀ i, Cert.LibFinite.IsReal (b i) := hb
  show Cert.LibFinite.IsReal (∑ j : Fin k, a (ix2 (i 0) j) * b (ix2 j (i 1)))
  exact Cert.LibFinite.isReal_sum _ _ fun j _ => (hA _).mul (hB _)

/-- THE LAW: on real entries the reference's grouping and the kernel's are one function. -/
theorem refOut_eq_kerOut {n f h o : Nat} (A : Mat n n) (X : Mat n f) (W1 : Mat h f) (b1 : Fin h → EReal) (W2 : Mat o h) (b2 : Fin o → EReal)
    (hA : ∀ i, Fin' (A i)) (hX : ∀ i, Fin' (X i)) (hW1 : ∀ i, Fin' (W1 i)) (hb1 : ∀ j, Fin' (b1 j))
    (hW2 : ∀ i, Fin' (W2 i)) : refOut A X W1 b1 W2 b2 = kerOut A X W1 b1 W2 b2 := by
  -- a transposed matrix has the same entries
  have hW1t : ∀ i, Fin' (tr W1 i) := fun i => hW1 _
  have hW2t : ∀ i, Fin' (tr W2 i) := fun i => hW2 _
  -- the hidden layers agree: (A · X) · W1ᵀ = A · (X · W1ᵀ) entry by entry
  have hH : refHidden A X W1 b1 = kerHidden A (kerT X W1) b1 := by
    funext i
    exact congrArg (fun t => relu0 (t + b1 (i 1))) (rowDot_assoc A X (tr W1) hA hX hW1t (i 0) (i 1))
  -- the hidden layer has real entries
  have hHf : ∀ i, Fin' (kerHidden A (kerT X W1) b1 i) :=
    fun i => kerHidden_fin A (kerT X W1) b1 hA (fun j => mm_fin X (tr W1) hX hW1t j) hb1 i
  -- the logits agree: (A · H) · W2ᵀ = A · (H · W2ᵀ) entry by entry
  have hZ : refLogits A (refHidden A X W1 b1) W2 b2
      = kerLogits A (kerU (kerHidden A (kerT X W1) b1) W2) b2 := by
    rw [hH]
    funext i
    exact congrArg (fun t => t + b2 (i 1))
      (rowDot_assoc A (kerHidden A (kerT X W1) b1) (tr W2) hA hHf hW2t (i 0) (i 1))
  unfold refOut kerOut
  rw [hZ]

end Cert.Spec

end
-- ==== Proof.LibGcnSpec.lean ====
/-
  One layer of a graph convolution at the extended reals, index by index: the features times the weights, the
  adjacency times that product, and a clamp at zero,

      layer A X W (p, q) = max (∑ₖ A(p, k) · (∑ⱼ X(k, j) · W(j, q))) 0,

  every sum a plain row-by-column sum over the contracted axis (no regrouping, so nothing here needs the entries to be
  finite). Three readings of it: the host's two `dot_general`s and `maximum` against a broadcast zero ARE this
  function; a matrix-unit product of a BLOCK OF ROWS of the adjacency with the whole hidden array, clamped, is this
  function read at those rows; and the hidden array a kernel keeps (one matrix-unit product into a zero accumulator)
  is the inner sum. A record of dimension numbers enters only through the six facts of a plain product, which any
  record listing "contract axis 1 of the left with axis 0 of the right, no batch axes" has.
-/
import Idealize.ShloMosaic.PureOps.Ideal
import Idealize.ShloMosaic.PureOps.Ideal.Laws
import Idealize.ShloMosaic.Lib.ValueIdx
import proofs.«148394_g17386027614455_cont_7to1_900_12_alg».proof.Proof.LibSageSpec

noncomputable section

open scoped BigOperators

namespace Idealize.ShloMosaic.GcnSpec

open Idealize.ShloMosaic Idealize.ShloMosaic.ValueIdx Idealize.ShloMosaic.SageSpec

/-! ## Plain dimension numbers -/

/-- A record whose lists are the plain ones — contract axis 1 of the left operand with axis 0 of the right, the other
    two axes kept in order, no batch axis — reads its operands at (row, κ) and (κ, column), whatever the extents. -/
theorem plainDot_of_lists {n k m : Nat} (d : DotDims ⟨2, ![n, k]⟩ ⟨2, ![k, m]⟩ ⟨2, ![n, m]⟩)
    (hlc : d.lhsContracting = [1]) (hrc : d.rhsContracting = [0]) (hln : d.lhsNonContracting = [0])
    (hrn : d.rhsNonContracting = [1]) (hlb : d.lhsBatch = []) (hrb : d.rhsBatch = []) : PlainDot d := by
  obtain ⟨lc, rc, ln, rn, lb, rb, wf⟩ := d
  dsimp only at hlc hrc hln hrn hlb hrb
  subst hlc hrc hln hrn hlb hrb
  refine ⟨rfl, fun _ => rfl, fun i q => ?_, fun i q _ => DotDims.lhsIdx_val_of_single _ rfl i q,
    fun i q _ => DotDims.rhsIdx_val_of_single _ rfl i q, fun i q => ?_⟩
  · unfold DotDims.lhsIdx
    rw [dif_neg List.not_mem_nil, dif_pos (List.mem_singleton.mpr rfl)]
    rfl
  · unfold DotDims.rhsIdx
    rw [dif_neg List.not_mem_nil, dif_pos (List.mem_singleton.mpr rfl)]
    rfl

/-! ## The layer -/

/-- The clamp at zero, the zero spelt as the word both programs print. -/
def clamp0 (s : EReal) : EReal := max s (Ideal.ofBits .f32 0x00000000#32)

/-- The hidden array: features times weights. -/
def hidden {n f h : Nat} (X : Mat n f) (W : Mat f h) : Mat n h := fun j => rowDot X W (j 0) (j 1)

/-- One layer: the adjacency times the hidden array, clamped at zero. -/
def layer {n f h : Nat} (A : Mat n n) (X : Mat n f) (W : Mat f h) : Mat n h :=
  fun i => clamp0 (rowDot A (hidden X W) (i 0) (i 1))

/-- A matrix-unit product into a zero accumulator, under a same-shape cast, is the hidden array. -/
theorem matmul_zero_eq_hidden {n f h : Nat} {d : DotDims ⟨2, ![n, f]⟩ ⟨2, ![f, h]⟩ ⟨2, ![n, h]⟩} (hd : PlainDot d)
    (prec : Option ContractPrecision) (X : FVec Ideal ⟨2, ![n, f]⟩ .f32) (W : FVec Ideal ⟨2, ![f, h]⟩ .f32) :
    FloatOps.matmul d prec X W (constant ⟨2, ![n, h]⟩ .f32 0x00000000#32) = hidden (fun i => X i) (fun i => W i) :=
  funext fun j => matmul_zero_at hd prec X W j

/-- The host's layer as printed — two `dot_general`s, then `maximum` against the broadcast zero word — is `layer`. -/
theorem host_layer {n f h : Nat} {d1 : DotDims ⟨2, ![n, f]⟩ ⟨2, ![f, h]⟩ ⟨2, ![n, h]⟩} {d2 : DotDims ⟨2, ![n, n]⟩ ⟨2, ![n, h]⟩ ⟨2, ![n, h]⟩}
    (h1 : PlainDot d1) (h2 : PlainDot d2) (A : FVec Ideal ⟨2, ![n, n]⟩ .f32) (X : FVec Ideal ⟨2, ![n, f]⟩ .f32) (W : FVec Ideal ⟨2, ![f, h]⟩ .f32)
    (Z : FVec Ideal ⟨2, ![n, h]⟩ .f32) (hZ : ∀ i, Z i = Ideal.ofBits .f32 0x00000000#32) :
    maximumf (Host.dotGeneral d2 none A (Host.dotGeneral d1 none X W)) Z = layer (fun i => A i) (fun i => X i) (fun i => W i) := by
  funext i
  rw [maximumf_apply, hZ, dotGeneral_at h2]
  unfold layer clamp0 rowDot
  refine congrArg (fun s => max s _) (Finset.sum_congr rfl fun κ _ => ?_)
  exact congrArg (fun s => A (ix2 (i 0) κ) * s) (dotGeneral_at h1 none X W (ix2 κ (i 1)))

/-- The kernel's block: `b` rows of the adjacency (row `r` of the block is row `row r` of the array) times the whole
    hidden array on the matrix unit into a zero accumulator, clamped against the splat zero word, read at (r, q), is
    the layer at (row r, q). -/
theorem block_layer {n f h b : Nat} {d : DotDims ⟨2, ![b, n]⟩ ⟨2, ![n, h]⟩ ⟨2, ![b, h]⟩} (hd : PlainDot d)
    (A : Mat n n) (X : Mat n f) (W : Mat f h) (a : FVec Ideal ⟨2, ![b, n]⟩ .f32) (row : Fin b → Fin n)
    (ha : ∀ (r : Fin b) (κ : Fin n), a (ix2 r κ) = A (ix2 (row r) κ))
    (H : FVec Ideal ⟨2, ![n, h]⟩ .f32) (hH : ∀ j, H j = hidden X W j)
    (Z : FVec Ideal ⟨2, ![b, h]⟩ .f32) (hZ : ∀ i, Z i = Ideal.ofBits .f32 0x00000000#32) (r : Fin b) (q : Fin h) :
    maximumf (FloatOps.matmul d none a H (constant ⟨2, ![b, h]⟩ .f32 0x00000000#32)) Z (ix2 r q) = layer A X W (ix2 (row r) q) := by
  rw [maximumf_apply, hZ, matmul_zero_at hd]
  unfold layer clamp0 rowDot
  refine congrArg (fun s => max s _) (Finset.sum_congr rfl fun κ _ => ?_)
  show a (ix2 r κ) * H (ix2 κ q) = A (ix2 (row r) κ) * hidden X W (ix2 κ q)
  rw [ha, hH]

end Idealize.ShloMosaic.GcnSpec

end
-- ==== Proof.LibKeepdims.lean ====
/-
  Column ("keepdims") layouts read at an index, and a row sum read at an index, generic in the sizes.

  A row-wise reduction that keeps its axis produces an `[a]` vector viewed as an `[a, 1]` column; the column is then
  viewed as a `[1, a]` row, or spread over the columns of an `[a, b]` matrix.  Each of these reads ONE entry of
  its operand at each index of its result:
    · `[a] → [a, 1]` at (i, u) reads the operand at i;
    · `[a, 1] → [1, a]` at (u, i) reads the operand at (i, 0);
    · `[a, 1] → [a, b]` (a broadcast) at (i, j) reads the operand at (i, 0);
  and a sum of an `[a, b]` matrix along its second axis, read at i over the extended reals, is the sum over the b
  columns of the entries of row i.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type}

/-- An `[a]` array cast to the column `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the operand at `(i, 0)`: both have row-major
    position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of an `[a, b]` matrix along its second axis, read at `i`, is the sum over the `b`
    columns of row `i`'s entries (the accumulator word being the sum's neutral element). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun d => Fin.ext (by
      match d with
      | ⟨0, _⟩ => rfl
      | ⟨1, _⟩ => rfl)))

end Cert.LibKeepdims

end
-- ==== Proof.Payloads.lean ====
/-
  What the idealized kernel's three stored values are, at the extended reals, index by index.
  The first store is T = X · W1ᵀ (a matrix-unit product into a zero accumulator). The second, for a block of 200 rows of the
  adjacency, is the rows of U = relu (A · T + b1) · W2ᵀ that the block's rows name. The third, for such a block, is the
  rows of logsoftmax (A · U + b2): each row's maximum folded from minus infinity, subtracted, exponentiated, summed,
  the sum's logarithm subtracted.
-/
import proofs.«148394_g17386027614455_cont_7to1_900_12_alg».proof.Proof.Gen.KernelIdeal.Skeleton
import proofs.«148394_g17386027614455_cont_7to1_900_12_alg».proof.Proof.Spec
import proofs.«148394_g17386027614455_cont_7to1_900_12_alg».proof.Proof.LibGcnSpec
import proofs.«148394_g17386027614455_cont_7to1_900_12_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Idealize.ShloMosaic.SageSpec Cert.KernelIdeal Cert.KernelIdeal.Gen Cert.Spec
open Idealize.ShloMosaic.GcnSpec Cert.LibKeepdims

/-! ## The four products contract axis 1 of the left operand with axis 0 of the right -/

private theorem plain1 : PlainDot dot_S10000x128_S128x128_S10000x128_1_0_0_1_n_n :=
  plainDot_of_lists _ rfl rfl rfl rfl rfl rfl

private theorem plain2 : PlainDot dot_S200x10000_S10000x128_S200x128_1_0_0_1_n_n :=
  plainDot_of_lists _ rfl rfl rfl rfl rfl rfl

private theorem plain3 : PlainDot dot_S200x128_S128x64_S200x64_1_0_0_1_n_n :=
  plainDot_of_lists _ rfl rfl rfl rfl rfl rfl

private theorem plain4 : PlainDot dot_S200x10000_S10000x64_S200x64_1_0_0_1_n_n :=
  plainDot_of_lists _ rfl rfl rfl rfl rfl rfl

/-! ## Layouts read at an index -/

/-- A vector viewed as one row and spread over the rows of a matrix reads, at (p, c), the vector at c. -/
private theorem bias_at {a b : ℕ} (v : (⟨1, ![b]⟩ : Shape).Idx → EReal) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A vector viewed as one column and spread over the columns of a matrix reads, at (p, c), the vector at p. -/
private theorem column_at {a b : ℕ} (v : (⟨1, ![a]⟩ : Shape).Idx → EReal) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ v h1) h2 (ix2 p c) = v (ix1 p) :=
  (broadcastTo_a1_ab_apply _ h2 p c).trans (shapeCast_a_a1_apply v h1 p 0)

/-- The maximum of an [a, b] matrix along its second axis, read at i: the fold of max, from the accumulator word's
    value, over the b entries of row i. -/
private theorem rowMax_at {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (Finset.fold_congr fun k _ => congrArg src (funext fun d => Fin.ext (by
      match d with
      | ⟨0, _⟩ => rfl
      | ⟨1, _⟩ => rfl)))

/-! ## The first store -/

/-- The first stored value is X · W1ᵀ. -/
theorem pay1_eq (x : Vec Ideal S10000x128 .f32) (w1 : Vec Ideal S128x128 .f32) :
    k0_pay1 (F := Ideal) x w1 = kerT (n := 10000) (f := 128) (h := 128) (fun i => x i) (fun i => w1 i) := by
  funext j
  obtain ⟨p, q, rfl⟩ : ∃ (p : Fin 10000) (q : Fin 128), j = ix2 p q := ⟨j 0, j 1, eq_ix2 j⟩
  unfold k0_pay1
  rw [shapeCast_self]
  refine (matmul_zero_at plain1 none x _ (ix2 p q)).trans ?_
  unfold kerT mm rowDot
  refine Finset.sum_congr rfl fun κ _ => ?_
  exact congrArg (fun s => x (ix2 p κ) * s) (transpose_ix2_apply w1 _ κ q)

/-! ## The second store -/

/-- The hidden block: the block's rows of A against T on the matrix unit into a zero accumulator, plus the bias spread
    over the rows, clamped against the splat zero word, read at (r, j): relu (A · T + b1) at (row r, j). -/
private theorem hidden_at (A : Mat 10000 10000) (a : FVec Ideal S200x10000 .f32) (row : Fin 200 → Fin 10000)
    (ha : ∀ (r : Fin 200) (κ : Fin 10000), a (ix2 r κ) = A (ix2 (row r) κ))
    (T : FVec Ideal S10000x128 .f32) (b1 : FVec Ideal S128 .f32) (r : Fin 200) (j : Fin 128) :
    maximumf (F := Ideal)
        (addf (matmul dot_S200x10000_S10000x128_S200x128_1_0_0_1_n_n none a T (constant S200x128 .f32 0x00000000#32))
          (broadcastTo S200x128 (shapeCast S1x128 b1 shapeCasts_S128_S1x128) broadcasts_S1x128_S200x128))
        (broadcast S200x128 (Scalar.ofBits .f32 0x00000000#32)) (ix2 r j)
      = kerHidden A (fun i => T i) (vec1 (fun i => b1 i)) (ix2 (row r) j) := by
  rw [maximumf_apply, addf_apply, broadcast_apply]
  refine congrArg₂ max (congrArg₂ (· + ·) ?_ (bias_at b1 _ _ r j)) rfl
  refine (matmul_zero_at plain2 none a T (ix2 r j)).trans ?_
  unfold rowDot
  exact Finset.sum_congr rfl fun κ _ => congrArg (fun s => s * T (ix2 κ j)) (ha r κ)

/-- The second stored value, for a block `a` of 200 rows of A (row r of the block is row `row r` of A), at (r, q):
    U at (row r, q), with U = relu (A · T + b1) · W2ᵀ. -/
theorem pay2_at (A : Mat 10000 10000) (a : Vec Ideal S200x10000 .f32) (row : Fin 200 → Fin 10000)
    (ha : ∀ (r : Fin 200) (κ : Fin 10000), a (ix2 r κ) = A (ix2 (row r) κ))
    (T : Vec Ideal S10000x128 .f32) (b1 : Vec Ideal S128 .f32) (w2 : Vec Ideal S64x128 .f32) (r : Fin 200) (q : Fin 64) :
    k0_pay2 (F := Ideal) a T b1 w2 (ix2 r q)
      = kerU (n := 10000) (h := 128) (o := 64) (kerHidden A (fun i => T i) (vec1 (fun i => b1 i))) (fun i => w2 i) (ix2 (row r) q) := by
  unfold k0_pay2
  rw [shapeCast_self]
  refine (matmul_zero_at plain3 none _ _ (ix2 r q)).trans ?_
  unfold kerU mm
  show rowDot _ _ r q = rowDot _ _ (row r) q
  unfold rowDot
  refine Finset.sum_congr rfl fun j _ => ?_
  exact congrArg₂ (· * ·) (hidden_at A a row ha T b1 r j) (transpose_ix2_apply w2 _ j q)

/-! ## The third store -/

/-- The block's logits: the block's rows of A against U on the matrix unit into a zero accumulator, plus the bias
    spread over the rows. -/
private def logitsBlk (a : FVec Ideal S200x10000 .f32) (Uv : FVec Ideal S10000x64 .f32) (b2 : FVec Ideal S64 .f32) : FVec Ideal S200x64 .f32 :=
  addf (matmul dot_S200x10000_S10000x64_S200x64_1_0_0_1_n_n none a Uv (constant S200x64 .f32 0x00000000#32))
    (broadcastTo S200x64 (shapeCast S1x64 b2 shapeCasts_S64_S1x64) broadcasts_S1x64_S200x64)

/-- Each row's maximum, folded from the word of minus infinity, kept as a column and spread over the row. -/
private def rmaxBlk (z : FVec Ideal S200x64 .f32) : FVec Ideal S200x64 .f32 :=
  broadcastTo S200x64
    (shapeCast S200x1 (multiReduction .maximumf [1] S200 z 0xFF800000#32 reduces_S200x64_S200 (.inl rfl) rfl) shapeCasts_S200_S200x1)
    broadcasts_S200x1_S200x64

/-- The logits with their row's maximum subtracted. -/
private def centredBlk (z : FVec Ideal S200x64 .f32) : FVec Ideal S200x64 .f32 := subf z (rmaxBlk z)

/-- The logarithm of each row's sum of exponentials, kept as a column and spread over the row. -/
private def lseBlk (z : FVec Ideal S200x64 .f32) : FVec Ideal S200x64 .f32 :=
  broadcastTo S200x64
    (log (shapeCast S200x1 (multiReduction .add [1] S200 (exp (centredBlk z)) 0x00000000#32 reduces_S200x64_S200 (.inl rfl) rfl)
      shapeCasts_S200_S200x1))
    broadcasts_S200x1_S200x64

/-- The third stored value is the centred logits minus the logarithm of the row's sum of exponentials. -/
private theorem pay3_unfold (a : FVec Ideal S200x10000 .f32) (Uv : FVec Ideal S10000x64 .f32) (b2 : FVec Ideal S64 .f32) :
    k0_pay3 (F := Ideal) a Uv b2 = subf (centredBlk (logitsBlk a Uv b2)) (lseBlk (logitsBlk a Uv b2)) := rfl

private theorem logitsBlk_at (A : Mat 10000 10000) (a : FVec Ideal S200x10000 .f32) (row : Fin 200 → Fin 10000)
    (ha : ∀ (r : Fin 200) (κ : Fin 10000), a (ix2 r κ) = A (ix2 (row r) κ))
    (Uv : FVec Ideal S10000x64 .f32) (b2 : FVec Ideal S64 .f32) (r : Fin 200) (k : Fin 64) :
    logitsBlk a Uv b2 (ix2 r k) = kerLogits A (fun i => Uv i) (vec1 (fun i => b2 i)) (ix2 (row r) k) := by
  unfold logitsBlk
  rw [addf_apply]
  refine congrArg₂ (· + ·) ?_ (bias_at b2 _ _ r k)
  refine (matmul_zero_at plain4 none a Uv (ix2 r k)).trans ?_
  unfold rowDot
  exact Finset.sum_congr rfl fun κ _ => congrArg (fun s => s * Uv (ix2 κ k)) (ha r κ)

private theorem rmaxBlk_at (z : FVec Ideal S200x64 .f32) (r : Fin 200) (k : Fin 64) :
    rmaxBlk z (ix2 r k) = rowMax (fun c => z (ix2 r c)) :=
  (column_at _ _ _ r k).trans (rowMax_at z _ _ _ _ r)

private theorem centredBlk_at (z : FVec Ideal S200x64 .f32) (r : Fin 200) (k : Fin 64) :
    centredBlk z (ix2 r k) = z (ix2 r k) - rowMax (fun c => z (ix2 r c)) := by
  unfold centredBlk
  rw [subf_apply, rmaxBlk_at]

private theorem lseBlk_at (z : FVec Ideal S200x64 .f32) (r : Fin 200) (k : Fin 64) :
    lseBlk z (ix2 r k) = Ideal.log (∑ c : Fin 64, Ideal.exp (z (ix2 r c) - rowMax (fun c => z (ix2 r c)))) := by
  unfold lseBlk
  refine (broadcastTo_a1_ab_apply _ _ r k).trans ?_
  refine congrArg Ideal.log ?_
  refine (shapeCast_a_a1_apply _ _ r 0).trans ?_
  refine (rowSum_apply _ _ _ _ _ r).trans ?_
  exact Finset.sum_congr rfl fun c _ => congrArg Ideal.exp (centredBlk_at z r c)

/-- The third stored value, for such a block, at (r, q): logsoftmax (A · U + b2) at (row r, q). -/
theorem pay3_at (A : Mat 10000 10000) (a : Vec Ideal S200x10000 .f32) (row : Fin 200 → Fin 10000)
    (ha : ∀ (r : Fin 200) (κ : Fin 10000), a (ix2 r κ) = A (ix2 (row r) κ))
    (Uv : Vec Ideal S10000x64 .f32) (b2 : Vec Ideal S64 .f32) (r : Fin 200) (q : Fin 64) :
    k0_pay3 (F := Ideal) a Uv b2 (ix2 r q)
      = logSoftmax (n := 10000) (o := 64) (kerLogits A (fun i => Uv i) (vec1 (fun i => b2 i))) (ix2 (row r) q) := by
  rw [pay3_unfold, subf_apply, centredBlk_at, lseBlk_at]
  have hz : (fun c => logitsBlk a Uv b2 (ix2 r c))
      = fun c => kerLogits A (fun i => Uv i) (vec1 (fun i => b2 i)) (ix2 (row r) c) :=
    funext fun c => logitsBlk_at A a row ha Uv b2 r c
  show logSoftmaxRow (fun c => logitsBlk a Uv b2 (ix2 r c)) q = logSoftmaxRow (fun c => kerLogits A (fun i => Uv i) (vec1 (fun i => b2 i)) (ix2 (row r) c)) q
  rw [hz]

end Cert.KernelIdeal.Pay

end
-- ==== Proof.KI.Final.lean ====
/-
  What the idealized kernel leaves in its result array, at the extended reals: the whole-array function
  logsoftmax (A · U + b2), U = relu (A · T + b1) · W2ᵀ, T = X · W1ᵀ, of the six argument arrays as launched.
  The input windows of X, W1, b1, W2, b2 have one block, the whole array; the adjacency's block at a point is its 200 rows
  starting at 200 · (the point's column). So the first scratch's T is X · W1ᵀ, block k of U is rows 200k … 200k + 199 of
  relu (A · T + b1) · W2ᵀ, and the output's block at point 50 + k is rows 200k … 200k + 199 of the log-softmax. The output
  window writes its block back at the points 50 … 99, block index k at point 50 + k: the fifty blocks tile the array.
-/
import proofs.«148394_g17386027614455_cont_7to1_900_12_alg».proof.Proof.KI.Data
import proofs.«148394_g17386027614455_cont_7to1_900_12_alg».proof.Proof.Payloads
import proofs.«148394_g17386027614455_cont_7to1_900_12_alg».proof.Proof.Spec
import Idealize.ShloMosaic.Lib.ValueIdx
import Idealize.ShloMosaic.Lib.Pipeline.Value

set_option maxRecDepth 16384

noncomputable section

namespace Cert.KernelIdeal.Body

open Idealize.ShloMosaic Idealize.ShloMosaic.TcCoe Idealize.ShloMosaic.ValueIdx Idealize.ShloMosaic.SageSpec
open Idealize.SL Idealize.SL.Sem
open Idealize.ShloMosaic.Pipeline (Dat Cfg Window)
open Cert.KernelIdeal Cert.KernelIdeal.Gen Cert.Spec

variable (m : (ℓ : Loc nD τ sig) → Buf (Elt Ideal) ℓ)

/-- The six argument arrays as launched, as matrices and vectors of extended reals. -/
def argX (c : Dev nD) : Mat 10000 128 := fun i => m ((c.tc : Thread nD τ).loc main_arg0) i
def argA (c : Dev nD) : Mat 10000 10000 := fun i => m ((c.tc : Thread nD τ).loc main_arg1) i
def argW1 (c : Dev nD) : Mat 128 128 := fun i => m ((c.tc : Thread nD τ).loc main_arg2) i
def argB1 (c : Dev nD) : Fin 128 → EReal := vec1 (fun i => m ((c.tc : Thread nD τ).loc main_arg3) i)
def argW2 (c : Dev nD) : Mat 64 128 := fun i => m ((c.tc : Thread nD τ).loc main_arg4) i
def argB2 (c : Dev nD) : Fin 64 → EReal := vec1 (fun i => m ((c.tc : Thread nD τ).loc main_arg5) i)

/-- The kernel's result: the kernel's grouping of the two layers, then the row-wise log-softmax. -/
def Gk (c : Dev nD) : S10000x64.Idx → EReal :=
  kerOut (n := 10000) (f := 128) (h := 128) (o := 64) (argA m c) (argX m c) (argW1 m c) (argB1 m c) (argW2 m c) (argB2 m c)

/-! ## The windows' block indices over the grid -/

/-- The printed index maps, decided over the 2 × 50 grid: every input window but the adjacency's stays at block 0; the
    adjacency's block row is the point's column; on grid row 1 the output's block row is the point's column. -/
private theorem idx_facts : ∀ t : Fin cfg0.N,
    win0_0.index t (0 : Fin 2) = 0 ∧ win0_0.index t (1 : Fin 2) = 0
    ∧ win0_1.index t (0 : Fin 2) = t.val % 50 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ (50 ≤ t.val → win0_6.index t (0 : Fin 2) = t.val - 50) ∧ win0_6.index t (1 : Fin 2) = 0 :=
  (by decide +kernel : ∀ t : Fin grid0.N, _)

/-! ## Each input window's block is the argument array at the placed index -/

/-- The block of X at any point is X. -/
private theorem iblk0_apply (c : Dev nD) (t : Fin cfg0.N) (y : S10000x128.Idx) : iblk m c 0 t y = argX m c y := by
  obtain ⟨e0, e1, -⟩ := idx_facts t
  show V m c main_arg0 (((cfg0.win 0).blk t).view.emb y) = m ((c.tc : Thread nD τ).loc main_arg0) y
  refine congrArg (m ((c.tc : Thread nD τ).loc main_arg0)) ?_
  funext a; apply Fin.ext
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- The block of W1 at any point is W1. -/
private theorem iblk2_apply (c : Dev nD) (t : Fin cfg0.N) (y : S128x128.Idx) : iblk m c 2 t y = argW1 m c y := by
  obtain ⟨-, -, -, -, e0, e1, -⟩ := idx_facts t
  show V m c main_arg2 (((cfg0.win 2).blk t).view.emb y) = m ((c.tc : Thread nD τ).loc main_arg2) y
  refine congrArg (m ((c.tc : Thread nD τ).loc main_arg2)) ?_
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The block of b1 at any point is b1. -/
private theorem iblk3_apply (c : Dev nD) (t : Fin cfg0.N) (y : S128.Idx) :
    iblk m c 3 t y = m ((c.tc : Thread nD τ).loc main_arg3) y := by
  obtain ⟨-, -, -, -, -, -, e0, -⟩ := idx_facts t
  show V m c main_arg3 (((cfg0.win 3).blk t).view.emb y) = m ((c.tc : Thread nD τ).loc main_arg3) y
  refine congrArg (m ((c.tc : Thread nD τ).loc main_arg3)) ?_
  funext a; apply Fin.ext
  match a with
  | ⟨0, _⟩ => show win0_3.index t (0 : Fin 1) * 128 + 1 * (y 0).val = (y 0).val; omega

/-- The block of W2 at any point is W2. -/
private theorem iblk4_apply (c : Dev nD) (t : Fin cfg0.N) (y : S64x128.Idx) : iblk m c 4 t y = argW2 m c y := by
  obtain ⟨-, -, -, -, -, -, -, e0, e1, -⟩ := idx_facts t
  show V m c main_arg4 (((cfg0.win 4).blk t).view.emb y) = m ((c.tc : Thread nD τ).loc main_arg4) y
  refine congrArg (m ((c.tc : Thread nD τ).loc main_arg4)) ?_
  funext a; apply Fin.ext
  match a with
  | ⟨0, _⟩ => show win0_4.index t (0 : Fin 2) * 64 + 1 * (y 0).val = (y 0).val; omega
  | ⟨1, _⟩ => show win0_4.index t (1 : Fin 2) * 128 + 1 * (y 1).val = (y 1).val; omega

/-- The block of b2 at any point is b2. -/
private theorem iblk5_apply (c : Dev nD) (t : Fin cfg0.N) (y : S64.Idx) :
    iblk m c 5 t y = m ((c.tc : Thread nD τ).loc main_arg5) y := by
  obtain ⟨-, -, -, -, -, -, -, -, -, e0, -⟩ := idx_facts t
  show V m c main_arg5 (((cfg0.win 5).blk t).view.emb y) = m ((c.tc : Thread nD τ).loc main_arg5) y
  refine congrArg (m ((c.tc : Thread nD τ).loc main_arg5)) ?_
  funext a; apply Fin.ext
  match a with
  | ⟨0, _⟩ => show win0_5.index t (0 : Fin 1) * 64 + 1 * (y 0).val = (y 0).val; omega

/-- The adjacency's block at a point is its 200 rows starting at row 200 · (the point's column). -/
private theorem iblk1_apply (c : Dev nD) (t : Fin cfg0.N) (r : Fin 200) (κ : Fin 10000) (R : Fin 10000)
    (hR : R.val = 200 * (t.val % 50) + r.val) : iblk m c 1 t (ix2 r κ) = argA m c (ix2 R κ) := by
  obtain ⟨-, -, e0, e1, -⟩ := idx_facts t
  show V m c main_arg1 (((cfg0.win 1).blk t).view.emb (ix2 r κ)) = m ((c.tc : Thread nD τ).loc main_arg1) (ix2 R κ)
  refine congrArg (m ((c.tc : Thread nD τ).loc main_arg1)) ?_
  funext a; apply Fin.ext
  match a with
  | ⟨0, _⟩ => show win0_1.index t (0 : Fin 2) * 200 + 1 * r.val = R.val; omega
  | ⟨1, _⟩ => show win0_1.index t (1 : Fin 2) * 10000 + 1 * κ.val = κ.val; omega

/-! ## The three stored values as functions of the argument arrays -/

/-- The hidden-layer product U = relu (A · T + b1) · W2ᵀ of the argument arrays, T = X · W1ᵀ. -/
private def Uk (c : Dev nD) : Mat 10000 64 :=
  kerU (n := 10000) (h := 128) (o := 64)
    (kerHidden (argA m c) (kerT (n := 10000) (f := 128) (h := 128) (argX m c) (argW1 m c)) (argB1 m c)) (argW2 m c)

/-- The result is the log-softmax of A · U + b2. -/
private theorem Gk_eq (c : Dev nD) :
    Gk m c = logSoftmax (n := 10000) (o := 64) (kerLogits (argA m c) (Uk m c) (argB2 m c)) := rfl

/-- The first scratch's T is X · W1ᵀ. -/
private theorem Tarr_eq (c : Dev nD) :
    (fun i => Tarr m c i : Mat 10000 128) = kerT (n := 10000) (f := 128) (h := 128) (argX m c) (argW1 m c) := by
  have hx : (fun i => iblk m c 0 t0 i : Mat 10000 128) = argX m c := funext fun i => iblk0_apply m c t0 i
  have hw : (fun i => iblk m c 2 t0 i : Mat 128 128) = argW1 m c := funext fun i => iblk2_apply m c t0 i
  exact (Pay.pay1_eq (iblk m c 0 t0) (iblk m c 2 t0)).trans
    (congrArg₂ (kerT (n := 10000) (f := 128) (h := 128)) hx hw)

/-- The bias blocks as vectors. -/
private theorem b1_eq (c : Dev nD) (t : Fin cfg0.N) : vec1 (fun i => iblk m c 3 t i) = argB1 m c :=
  congrArg vec1 (funext fun i => iblk3_apply m c t i)
private theorem b2_eq (c : Dev nD) (t : Fin cfg0.N) : vec1 (fun i => iblk m c 5 t i) = argB2 m c :=
  congrArg vec1 (funext fun i => iblk5_apply m c t i)

/-- Block t of U, for a point of grid row 0, is rows 200 t … 200 t + 199 of U. -/
private theorem Ublk_apply (c : Dev nD) (t : Fin cfg0.N) (ht : t.val < 50) (r : Fin 200) (q : Fin 64) (R : Fin 10000)
    (hR : R.val = 200 * t.val + r.val) : Ublk m c t (ix2 r q) = Uk m c (ix2 R q) := by
  have ha : ∀ (r' : Fin 200) (κ : Fin 10000),
      iblk m c 1 t (ix2 r' κ) = argA m c (ix2 (⟨200 * t.val + r'.val, by omega⟩ : Fin 10000) κ) :=
    fun r' κ => iblk1_apply m c t r' κ _ (by show 200 * t.val + r'.val = 200 * (t.val % 50) + r'.val; omega)
  have hrow : (⟨200 * t.val + r.val, by omega⟩ : Fin 10000) = R := Fin.ext hR.symm
  have hw : (fun i => iblk m c 4 t i : Mat 64 128) = argW2 m c := funext fun i => iblk4_apply m c t i
  refine (Pay.pay2_at (argA m c) (iblk m c 1 t) (fun r' => ⟨200 * t.val + r'.val, by omega⟩) ha (Tarr m c)
    (iblk m c 3 t) (iblk m c 4 t) r q).trans ?_
  rw [Tarr_eq, b1_eq, hw, hrow]
  rfl

/-- The second scratch's U is relu (A · T + b1) · W2ᵀ. -/
private theorem Uarr_eq (c : Dev nD) : (fun i => Uarr m c i : Mat 10000 64) = Uk m c := by
  funext y
  have hy0 : (y 0).val < 10000 := (y 0).isLt
  have hy1 : (y 1).val < 64 := (y 1).isLt
  show Ublk m c ⟨(y 0).val / 200, _⟩ (ix2 (⟨(y 0).val % 200, _⟩ : Fin 200) (⟨(y 1).val, _⟩ : Fin 64)) = Uk m c y
  refine (Ublk_apply m c ⟨(y 0).val / 200, by rw [N_eq]; omega⟩ (by show (y 0).val / 200 < 50; omega)
    ⟨(y 0).val % 200, Nat.mod_lt _ (by omega)⟩ ⟨(y 1).val, hy1⟩ ⟨(y 0).val, hy0⟩
    (by show (y 0).val = 200 * ((y 0).val / 200) + (y 0).val % 200; omega)).trans ?_
  exact congrArg (Uk m c) (eq_ix2 y).symm

/-- The output's block at a point of grid row 1 is rows 200 (t − 50) … 200 (t − 50) + 199 of the result. -/
private theorem Oblk_apply (c : Dev nD) (t : Fin cfg0.N) (ht : 50 ≤ t.val) (r : Fin 200) (q : Fin 64) (R : Fin 10000)
    (hR : R.val = 200 * (t.val - 50) + r.val) : Oblk m c t (ix2 r q) = Gk m c (ix2 R q) := by
  have hN : t.val < 100 := Nat.lt_of_lt_of_eq t.isLt N_eq
  have ha : ∀ (r' : Fin 200) (κ : Fin 10000),
      iblk m c 1 t (ix2 r' κ) = argA m c (ix2 (⟨200 * (t.val - 50) + r'.val, by omega⟩ : Fin 10000) κ) :=
    fun r' κ => iblk1_apply m c t r' κ _
      (by show 200 * (t.val - 50) + r'.val = 200 * (t.val % 50) + r'.val; omega)
  have hrow : (⟨200 * (t.val - 50) + r.val, by omega⟩ : Fin 10000) = R := Fin.ext hR.symm
  refine (Pay.pay3_at (argA m c) (iblk m c 1 t) (fun r' => ⟨200 * (t.val - 50) + r'.val, by omega⟩) ha (Uarr m c)
    (iblk m c 5 t) r q).trans ?_
  rw [Uarr_eq, b2_eq, hrow, Gk_eq]

/-! ## What the output window writes back, and the cover -/

/-- The output's block at a point of grid row 1, read at an index of the block, is the result at the placed index. -/
private theorem Oblk_at (c : Dev nD) (t : Fin cfg0.N) (ht : 50 ≤ t.val) (j : S200x64.Idx) :
    Oblk m c t j = Gk m c (((cfg0.win 6).blk t).view.emb j) := by
  have hN : t.val < 100 := Nat.lt_of_lt_of_eq t.isLt N_eq
  have hj0 : (j 0).val < 200 := (j 0).isLt
  have hj1 : (j 1).val < 64 := (j 1).isLt
  obtain ⟨-, -, -, -, -, -, -, -, -, -, e0, e1⟩ := idx_facts t
  have hE : ((cfg0.win 6).blk t).view.emb j
      = ix2 (⟨200 * (t.val - 50) + (j 0).val, by omega⟩ : Fin 10000) (⟨(j 1).val, hj1⟩ : Fin 64) := by
    funext a; apply Fin.ext
    match a with
    | ⟨0, _⟩ =>
      show win0_6.index t (0 : Fin 2) * 200 + 1 * (j 0).val = 200 * (t.val - 50) + (j 0).val
      rw [e0 ht]; omega
    | ⟨1, _⟩ => show win0_6.index t (1 : Fin 2) * 64 + 1 * (j 1).val = (j 1).val; omega
  rw [hE]
  exact (congrArg (Oblk m c t) (eq_ix2 j)).trans (Oblk_apply m c t ht ⟨(j 0).val, hj0⟩ ⟨(j 1).val, hj1⟩ _ rfl)

/-- What a point that writes back writes is its block of the result. -/
private theorem flushed_eq (c : Dev nD) (t : Fin cfg0.N) (hf : (cfg0.win 6).flush t = true) :
    (dats m 0 c).flushed 6 t = ((cfg0.win 6).blk t).view.read (Elt Ideal) (Gk m c) := by
  have ht : 50 ≤ t.val := by
    by_contra h
    rw [flush6_lo t (by omega)] at hf
    exact Bool.noConfusion hf
  show (cfg0.win 6).cut (grid0.coords t) ((dats m 0 c).after 6 t) = _
  rw [after_6]
  funext j
  exact Oblk_at m c t ht j

/-- An index of the result array is in point t's block iff each coordinate is in the block's range on its axis. -/
private theorem mem_blk (t : Fin cfg0.N) (i : S10000x64.Idx) :
    i ∈ ((cfg0.win 6).blk t).view.set ↔ ∀ a : Fin 2, win0_6.index t a * S200x64.size a ≤ (i a).val
      ∧ (i a).val < win0_6.index t a * S200x64.size a + S200x64.size a := by
  show i ∈ ((View.whole main_v0).slice (win0_6.rect t)).set ↔ _
  rw [View.set_slice_whole, Rect.mem_set_unit]
  exact Iff.rfl

/-- Row i of the result lies in the block of the point 50 + i / 200, which writes back: the fifty blocks tile the array. -/
private theorem cover (i : S10000x64.Idx) :
    ∃ t : Fin cfg0.N, (cfg0.win 6).flush t = true ∧ i ∈ ((cfg0.win 6).blk t).view.set := by
  have hi0 : (i 0).val < 10000 := (i 0).isLt
  have hi1 : (i 1).val < 64 := (i 1).isLt
  refine ⟨⟨50 + (i 0).val / 200, by rw [N_eq]; omega⟩, flush6_hi _ (by show 50 ≤ 50 + (i 0).val / 200; omega), ?_⟩
  obtain ⟨-, -, -, -, -, -, -, -, -, -, e0, e1⟩ := idx_facts ⟨50 + (i 0).val / 200, by rw [N_eq]; omega⟩
  have e0' := e0 (by show 50 ≤ 50 + (i 0).val / 200; omega)
  rw [mem_blk]
  intro a
  match a with
  | ⟨0, _⟩ =>
    show win0_6.index _ (0 : Fin 2) * 200 ≤ (i 0).val ∧ (i 0).val < win0_6.index _ (0 : Fin 2) * 200 + 200
    rw [e0']
    show (50 + (i 0).val / 200 - 50) * 200 ≤ (i 0).val ∧ (i 0).val < (50 + (i 0).val / 200 - 50) * 200 + 200
    omega
  | ⟨1, _⟩ =>
    show win0_6.index _ (1 : Fin 2) * 64 ≤ (i 1).val ∧ (i 1).val < win0_6.index _ (1 : Fin 2) * 64 + 64
    rw [e1]; omega

/-- THE RESULT ARRAY after the write-backs of all grid points. -/
theorem final (c : Dev nD) : (dats m 0 c).arrAt 6 cfg0.N = Gk m c :=
  (dats m 0 c).arrAt_eq_of_cover 6 (Gk m c) (fun t hf => flushed_eq m c t hf) cover

end Cert.KernelIdeal.Body

end
-- ==== Proof.RefSide.lean ====
/-
  The reference program's result at the extended reals, index by index: its thirty host operations, read one at a time,
  compute logsoftmax ((A · relu ((A · X) · W1ᵀ + b1)) · W2ᵀ + b2), every product a plain row-by-column sum, the row
  maximum folded from minus infinity (and joined once more with minus infinity, which changes nothing).
-/
import proofs.«148394_g17386027614455_cont_7to1_900_12_alg».proof.Proof.RefRead
import proofs.«148394_g17386027614455_cont_7to1_900_12_alg».proof.Proof.Spec
import proofs.«148394_g17386027614455_cont_7to1_900_12_alg».proof.Proof.LibGcnSpec
import Idealize.ShloMosaic.Lib.ValueIdx
import Idealize.ShloMosaic.Lib.Pipeline.Value
import Idealize.ShloMosaic.PureOps.Ideal.Laws
import Idealize.ShloMosaic.PureOps.Reduce

noncomputable section

namespace Cert.RefSide

open Idealize.ShloMosaic Idealize.ShloMosaic.ValueIdx Idealize.ShloMosaic.SageSpec Idealize.SL.Sem Cert.ReferenceIdeal Cert.Spec
open Cert.ReferenceIdeal.Gen Idealize.ShloMosaic.GcnSpec Idealize.ShloMosaic.StableHlo
open scoped BigOperators

/-! ## The three products read rows against columns -/

/-- A · (an [n × 128] array): axis 1 of the left against axis 0 of the right. -/
private theorem plainA : PlainDot dot_S10000x10000_S10000x128_S10000x128_1_0_0_1_n_n :=
  plainDot_of_lists _ rfl rfl rfl rfl rfl rfl

/-- (an [n × 128] array) · W1ᵀ. -/
private theorem plainW1 : PlainDot dot_S10000x128_S128x128_S10000x128_1_0_0_1_n_n :=
  plainDot_of_lists _ rfl rfl rfl rfl rfl rfl

/-- (an [n × 128] array) · W2ᵀ. -/
private theorem plainW2 : PlainDot dot_S10000x128_S128x64_S10000x64_1_0_0_1_n_n :=
  plainDot_of_lists _ rfl rfl rfl rfl rfl rfl

/-! ## Putting a coordinate back on the reduced axis -/

/-- Row index j of an [m × n] array with column k put back is (j, k). -/
private theorem lift_row {m n : Nat} (h : (⟨2, ![m, n]⟩ : Shape).Reduces [1] (⟨1, ![m]⟩ : Shape))
    (j : (⟨1, ![m]⟩ : Shape).Idx) (k : Fin ((⟨2, ![m, n]⟩ : Shape).size 1)) :
    h.lift j k = ix2 (j 0) (⟨k.val, k.isLt⟩ : Fin n) := by
  funext c; apply Fin.ext
  fin_cases c <;> rfl

/-- A fold of maxima is at least its starting value, so joining it once more with that value changes nothing. -/
private theorem max_fold_max {o : Nat} (b : EReal) (z : Fin o → EReal) :
    max b (Finset.univ.fold max b z) = Finset.univ.fold max b z :=
  max_eq_right ((Finset.le_fold_max b).mpr (Or.inl le_rfl))

section Stages

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S64x128, .f32⟩ : BufTy).Contents (Elt Ideal)) (x5 : (⟨S64, .f32⟩ : BufTy).Contents (Elt Ideal))

/-! ## The first layer -/

/-- A · X. -/
private theorem v0_eq : (ReadP.val_main_v0 (F := Ideal) x0 x1 : S10000x128.Idx → EReal)
    = mm (n := 10000) (k := 10000) (m := 128) (fun i => x1 i) (fun i => x0 i) := by
  funext j
  unfold ReadP.val_main_v0
  exact dotGeneral_at plainA none x1 x0 j

/-- W1 read transposed. -/
private theorem v1_eq : (ReadP.val_main_v1 (F := Ideal) x2 : S128x128.Idx → EReal)
    = tr (n := 128) (m := 128) (fun i => x2 i) := by
  funext j
  rw [ReadP.val_main_v1_apply]
  exact congrArg x2 (funext fun a => match a with | ⟨0, _⟩ => rfl | ⟨1, _⟩ => rfl)

/-- The first bias, broadcast along the rows, read at (p, q) is b1 at q. -/
private theorem v4_at (j : S10000x128.Idx) :
    ReadP.val_main_v4 (F := Ideal) x3 j = vec1 (n := 128) (fun i => x3 i) (j 1) := by
  rw [ReadP.val_main_v4_apply, ReadP.val_main_v3_apply]
  exact congrArg x3 (funext fun a => match a with | ⟨0, _⟩ => rfl)

/-- (A · X) · W1ᵀ at (p, q). -/
private theorem v2_at (j : S10000x128.Idx) :
    ReadP.val_main_v2 (F := Ideal) x0 x1 x2 j
      = rowDot (mm (n := 10000) (k := 10000) (m := 128) (fun i => x1 i) (fun i => x0 i))
          (tr (n := 128) (m := 128) (fun i => x2 i)) (j 0) (j 1) := by
  unfold ReadP.val_main_v2
  rw [v0_eq, v1_eq]
  exact dotGeneral_at plainW1 none _ _ j

/-- The hidden layer: relu ((A · X) · W1ᵀ + b1). -/
private theorem v6_eq : (ReadP.val_main_v6 (F := Ideal) x0 x1 x2 x3 : S10000x128.Idx → EReal)
    = refHidden (n := 10000) (f := 128) (h := 128) (fun i => x1 i) (fun i => x0 i) (fun i => x2 i)
        (vec1 (fun i => x3 i)) := by
  funext j
  rw [ReadP.val_main_v6_apply, ReadP.val_main_v5_apply, ReadP.val_main_call0_v0_apply,
    ReadP.val_main_call0_cst_apply, v4_at, v2_at]
  rfl

/-! ## The second layer -/

/-- A · H. -/
private theorem v7_eq : (ReadP.val_main_v7 (F := Ideal) x0 x1 x2 x3 : S10000x128.Idx → EReal)
    = mm (n := 10000) (k := 10000) (m := 128) (fun i => x1 i)
        (refHidden (n := 10000) (f := 128) (h := 128) (fun i => x1 i) (fun i => x0 i) (fun i => x2 i)
          (vec1 (fun i => x3 i))) := by
  funext j
  unfold ReadP.val_main_v7
  rw [v6_eq]
  exact dotGeneral_at plainA none _ _ j

/-- W2 read transposed. -/
private theorem v8_eq : (ReadP.val_main_v8 (F := Ideal) x4 : S128x64.Idx → EReal)
    = tr (n := 64) (m := 128) (fun i => x4 i) := by
  funext j
  rw [ReadP.val_main_v8_apply]
  exact congrArg x4 (funext fun a => match a with | ⟨0, _⟩ => rfl | ⟨1, _⟩ => rfl)

/-- The second bias, broadcast along the rows, read at (p, q) is b2 at q. -/
private theorem v11_at (j : S10000x64.Idx) :
    ReadP.val_main_v11 (F := Ideal) x5 j = vec1 (n := 64) (fun i => x5 i) (j 1) := by
  rw [ReadP.val_main_v11_apply, ReadP.val_main_v10_apply]
  exact congrArg x5 (funext fun a => match a with | ⟨0, _⟩ => rfl)

/-- (A · H) · W2ᵀ at (p, q). -/
private theorem v9_at (j : S10000x64.Idx) :
    ReadP.val_main_v9 (F := Ideal) x0 x1 x2 x3 x4 j
      = rowDot (mm (n := 10000) (k := 10000) (m := 128) (fun i => x1 i)
            (refHidden (n := 10000) (f := 128) (h := 128) (fun i => x1 i) (fun i => x0 i) (fun i => x2 i)
              (vec1 (fun i => x3 i))))
          (tr (n := 64) (m := 128) (fun i => x4 i)) (j 0) (j 1) := by
  unfold ReadP.val_main_v9
  rw [v7_eq, v8_eq]
  exact dotGeneral_at plainW2 none _ _ j

/-- The logits: (A · H) · W2ᵀ + b2. -/
private theorem v12_eq : (ReadP.val_main_v12 (F := Ideal) x0 x1 x2 x3 x4 x5 : S10000x64.Idx → EReal)
    = refLogits (n := 10000) (h := 128) (o := 64) (fun i => x1 i)
        (refHidden (n := 10000) (f := 128) (h := 128) (fun i => x1 i) (fun i => x0 i) (fun i => x2 i)
          (vec1 (fun i => x3 i)))
        (fun i => x4 i) (vec1 (fun i => x5 i)) := by
  funext j
  rw [ReadP.val_main_v12_apply, v11_at, v9_at]
  rfl

/-! ## The log-softmax of a row of the logits -/

/-- The row maximum as the reference computes it: the fold from minus infinity over the row, joined once more with
    minus infinity. -/
private theorem rowmax_at (r : S10000.Idx) :
    ReadP.val_main_call1_v2 (F := Ideal) x0 x1 x2 x3 x4 x5 r
      = rowMax (o := 64) (fun q => ReadP.val_main_v12 (F := Ideal) x0 x1 x2 x3 x4 x5 (ix2 (r 0) q)) := by
  have hred : S10000x64.Reduces [1] S10000 := by decide
  rw [ReadP.val_main_call1_v2_apply, ReadP.val_main_call1_v1_apply, ReadP.val_main_call1_cst_0_apply]
  unfold ReadP.val_main_call1_v0
  rw [Host.reduce_eq_fold_single FloatOps.maximumf _ _ reducesTo_S10000x64_S10000_d1 hred h_S_]
  have hf : (ReadP.val_main_v12 (F := Ideal) x0 x1 x2 x3 x4 x5 ∘ hred.lift r)
      = fun k : Fin 64 => ReadP.val_main_v12 (F := Ideal) x0 x1 x2 x3 x4 x5 (ix2 (r 0) k) :=
    funext fun k => congrArg (ReadP.val_main_v12 (F := Ideal) x0 x1 x2 x3 x4 x5) (lift_row hred r k)
  rw [hf]
  exact max_fold_max negInfW _

/-- The row maximum, broadcast back over the row, read at (p, q). -/
private theorem v4c_at (j : S10000x64.Idx) :
    ReadP.val_main_call1_v4 (F := Ideal) x0 x1 x2 x3 x4 x5 j
      = rowMax (o := 64) (fun q => ReadP.val_main_v12 (F := Ideal) x0 x1 x2 x3 x4 x5 (ix2 (j 0) q)) := by
  rw [ReadP.val_main_call1_v4_apply, ReadP.val_main_call1_v3_apply, rowmax_at]
  rfl

/-- Column k put beside row index r is (r, k). -/
private theorem idx7_eq (r : S10000.Idx) (k : Fin 64) : ReadP.idx_main_call1_v7 r k = ix2 (r 0) k :=
  funext fun a => match a with | ⟨0, _⟩ => rfl | ⟨1, _⟩ => rfl

/-- The sum of the exponentials of a row's entries less the row's maximum: the zero word it starts from adds nothing. -/
private theorem v7c_at (r : S10000.Idx) :
    ReadP.val_main_call1_v7 (F := Ideal) x0 x1 x2 x3 x4 x5 r
      = ∑ k : Fin 64, Ideal.exp (ReadP.val_main_v12 (F := Ideal) x0 x1 x2 x3 x4 x5 (ix2 (r 0) k)
          - rowMax (o := 64) (fun q => ReadP.val_main_v12 (F := Ideal) x0 x1 x2 x3 x4 x5 (ix2 (r 0) q))) := by
  rw [ReadP.val_main_call1_v7_apply, ReadP.val_main_call1_cst_1_apply]
  show Ideal.ofBits .f32 0x00000000#32 + _ = _
  rw [Ideal.ofBits_zero_f32, zero_add]
  refine Finset.sum_congr rfl fun k _ => ?_
  rw [ReadP.val_main_call1_v6_apply, ReadP.val_main_call1_v5_apply, v4c_at, idx7_eq]
  rfl

/-- The logarithm of that sum, broadcast back over the row, read at (p, q). -/
private theorem v10c_at (j : S10000x64.Idx) :
    ReadP.val_main_call1_v10 (F := Ideal) x0 x1 x2 x3 x4 x5 j
      = Ideal.log (∑ k : Fin 64, Ideal.exp (ReadP.val_main_v12 (F := Ideal) x0 x1 x2 x3 x4 x5 (ix2 (j 0) k)
          - rowMax (o := 64) (fun q => ReadP.val_main_v12 (F := Ideal) x0 x1 x2 x3 x4 x5 (ix2 (j 0) q)))) := by
  rw [ReadP.val_main_call1_v10_apply, ReadP.val_main_call1_v9_apply, ReadP.val_main_call1_v8_apply, v7c_at]
  rfl

/-- The last stage at (p, q): the log-softmax of row p of the logits, at q. -/
private theorem v13_at (i : S10000x64.Idx) :
    ReadP.val_main_v13 (F := Ideal) x0 x1 x2 x3 x4 x5 i
      = logSoftmaxRow (o := 64) (fun q => ReadP.val_main_v12 (F := Ideal) x0 x1 x2 x3 x4 x5 (ix2 (i 0) q)) (i 1) := by
  rw [ReadP.val_main_v13_apply, ReadP.val_main_call1_v5_apply, v4c_at, v10c_at,
    congrArg (ReadP.val_main_v12 (F := Ideal) x0 x1 x2 x3 x4 x5) (eq_ix2 i)]
  rfl

end Stages

/-- The reference's result is `refOut` of its six argument arrays. -/
theorem ref_out (m : (ℓ : Loc nD τ sig) → Buf (Elt Ideal) ℓ) (c : Dev nD) :
    (Cert.ReferenceIdeal.ValueP.res_out0 (F := Ideal) m c : S10000x64.Idx → EReal)
      = refOut (n := 10000) (f := 128) (h := 128) (o := 64)
          (fun i => m ((c.tc : Thread nD τ).loc main_arg1) i) (fun i => m ((c.tc : Thread nD τ).loc main_arg0) i)
          (fun i => m ((c.tc : Thread nD τ).loc main_arg2) i) (vec1 (fun i => m ((c.tc : Thread nD τ).loc main_arg3) i))
          (fun i => m ((c.tc : Thread nD τ).loc main_arg4) i) (vec1 (fun i => m ((c.tc : Thread nD τ).loc main_arg5) i)) := by
  funext i
  show (Cert.ReferenceIdeal.ValueP.res_main_v13 (F := Ideal) m c : S10000x64.Idx → EReal) i = _
  rw [ReadP.val_main_v13_eq, v13_at, v12_eq]
  rfl

end Cert.RefSide

end
-- ==== Proof.Finite.lean ====
/-
  From the precondition "every float input is finite" to: every entry of every argument array is a real number
  (neither infinity). The precondition is a conjunction of six tests, one per array, each the conjunction over the
  array's entries of |x| < +inf, the bound spelt as the word of plus infinity.
-/
import proofs.«148394_g17386027614455_cont_7to1_900_12_alg».proof.Pre_finite_inputs
import proofs.«148394_g17386027614455_cont_7to1_900_12_alg».proof.Proof.Spec
import Idealize.ShloMosaic.PureOps.Ideal
import Idealize.ShloMosaic.Lib.ReduceAll

noncomputable section

namespace Cert.Finite

open Idealize.ShloMosaic Cert.Spec

/-- The rank-0 shape has one index. -/
private instance : Subsingleton Cert.Pre_finite_inputs.S_.Idx := ⟨fun a b => funext fun d => d.elim0⟩

/-- The word of plus infinity reads as the top element of the extended reals. -/
private theorem ofBits_posInf : Ideal.ofBits .f32 0x7F800000#32 = (⊤ : EReal) := by
  simp [Ideal.ofBits, Ideal.ieee]

/-- An absolute value strictly below the top element belongs to a real number: at either infinity the
    absolute value max x (-x) is the top element itself. -/
private theorem fin_of_abs_lt_top (x : EReal) (h : max x (-x) < ⊤) : Fin' x := by
  refine ⟨?_, ?_⟩
  · rintro rfl; simp at h
  · rintro rfl; simp at h

/-- One array's test, for any shape: if the conjunction over all entries of |x| < +inf is 1, every entry is
    neither infinity. The conjunction being 1 gives each comparison word being 1; the comparison is the strict
    order of the extended reals against the top element. -/
private theorem fin_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x) (broadcastInDim s ![] hb (constant Cert.Pre_finite_inputs.S_ .f32 0x7F800000#32)))
          (constantI Cert.Pre_finite_inputs.S_ 1 1#1) hr hu j = 1#1) :
    ∀ i, Fin' (x i) := by
  intro i
  have h1 := Host.reduce_andi_all _ _ hr hu j e i
  have h2 : Ideal.cmp .olt (max (x i) (-(x i))) (Ideal.ofBits .f32 0x7F800000#32) = 1#1 := h1
  rw [ofBits_posInf] at h2
  apply fin_of_abs_lt_top
  by_contra hn
  simp [Ideal.cmp, hn] at h2

/-- Where the six tests all pass, every entry of every argument is neither infinity. -/
theorem fin_of_fn [Cert.Pre_finite_inputs.Facts]
    (x0 : FVec Ideal Cert.Pre_finite_inputs.S10000x128 .f32) (x1 : FVec Ideal Cert.Pre_finite_inputs.S10000x10000 .f32)
    (x2 : FVec Ideal Cert.Pre_finite_inputs.S128x128 .f32) (x3 : FVec Ideal Cert.Pre_finite_inputs.S128 .f32)
    (x4 : FVec Ideal Cert.Pre_finite_inputs.S64x128 .f32) (x5 : FVec Ideal Cert.Pre_finite_inputs.S64 .f32)
    (h : Cert.Pre_finite_inputs.fn (F := Ideal) x0 x1 x2 x3 x4 x5 = fun _ => 1#1) :
    (∀ i, Fin' (x0 i)) ∧ (∀ i, Fin' (x1 i)) ∧ (∀ i, Fin' (x2 i)) ∧ (∀ i, Fin' (x3 i)) ∧ (∀ i, Fin' (x4 i)) ∧ (∀ i, Fin' (x5 i)) := by
  -- the one entry of the rank-0 result, then the five binary conjunctions apart, then each array's test
  have h0 := congrFun h ValueIdx.ix0
  dsimp only [Cert.Pre_finite_inputs.fn, Cert.Pre_finite_inputs.fn_part1, andi] at h0
  obtain ⟨h01234, e5⟩ := IntOp.andi_eq_one.1 h0
  obtain ⟨h0123, e4⟩ := IntOp.andi_eq_one.1 h01234
  obtain ⟨h012, e3⟩ := IntOp.andi_eq_one.1 h0123
  obtain ⟨h01, e2⟩ := IntOp.andi_eq_one.1 h012
  obtain ⟨e0, e1⟩ := IntOp.andi_eq_one.1 h01
  exact ⟨fin_of_all x0 _ _ _ _ e0, fin_of_all x1 _ _ _ _ e1, fin_of_all x2 _ _ _ _ e2, fin_of_all x3 _ _ _ _ e3,
    fin_of_all x4 _ _ _ _ e4, fin_of_all x5 _ _ _ _ e5⟩

end Cert.Finite

end
-- ==== Proof.lean ====
/-
  A two-layer graph convolution with a row-wise log-softmax, fused into one kernel on a 2 × 50 grid, against its
  plain reference, over the extended reals.

  The kernel computes T = X · W1ᵀ once into a scratch buffer, then along grid row 0 fills a second scratch with
  U = relu (A · T + b1) · W2ᵀ, 200 rows per point, and along grid row 1 writes logsoftmax (A · U + b2), 200 rows per point.
  The reference computes logsoftmax ((A · relu ((A · X) · W1ᵀ + b1)) · W2ᵀ + b2). The two differ only in how the
  matrix products are grouped, (A · X) · W1ᵀ against A · (X · W1ᵀ) and (A · H) · W2ᵀ against A · (H · W2ᵀ): on real
  entries, which the precondition gives, the product of matrices is associative, and the log-softmax is the same function of the
  same logits on both sides.

  The three frames: both kernel programs run from the pipeline's launch with the body proved at every grid point (the same
  argument at the word-level and the ideal instance); the reference is a straight line of host operations.
  The idealization rewrote nothing, so it preserves the program trivially.
-/
import proofs.«148394_g17386027614455_cont_7to1_900_12_alg».proof.Defs
import proofs.«148394_g17386027614455_cont_7to1_900_12_alg».proof.Proof.K.Main
import proofs.«148394_g17386027614455_cont_7to1_900_12_alg».proof.Proof.KI.Main
import proofs.«148394_g17386027614455_cont_7to1_900_12_alg».proof.Proof.KI.Final
import proofs.«148394_g17386027614455_cont_7to1_900_12_alg».proof.Proof.RefSide
import proofs.«148394_g17386027614455_cont_7to1_900_12_alg».proof.Proof.Finite
import proofs.«148394_g17386027614455_cont_7to1_900_12_alg».proof.Proof.Spec
import proofs.«148394_g17386027614455_cont_7to1_900_12_alg».proof.Proof.Gen.Kernel
import proofs.«148394_g17386027614455_cont_7to1_900_12_alg».proof.Proof.Gen.KernelIdeal
import proofs.«148394_g17386027614455_cont_7to1_900_12_alg».proof.Proof.Gen.ReferenceIdeal
import proofs.«148394_g17386027614455_cont_7to1_900_12_alg».proof.Proof.Gen.Pre_finite_inputs
import Idealize.ShloMosaic.Adequacy
import Idealize.ShloMosaic.Init

set_option maxRecDepth 16384

noncomputable section

namespace Cert.Proof

open Idealize.ShloMosaic Idealize.ShloMosaic.TcCoe Idealize.SL.Sem Cert.Spec

/-- The idealized kernel's run, read: the result array ends at the kernel's whole-array function of the arguments, and
    the arguments end unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v0) = Cert.KernelIdeal.Body.Gk m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run (Cert.KernelIdeal.defs (F := Ideal)) _ _).mono (fun r h c =>
    ⟨((h c).1 6).trans (Cert.KernelIdeal.Body.final m c),
      ((h c).1 0).trans (((Cert.KernelIdeal.Body.dats m 0 c).arrAt_in 0 rfl _).trans ((Cert.KernelIdeal.Body.A_eq m c 0).trans (Cert.KernelIdeal.Gen.V_main_arg0 m c))),
      ((h c).1 1).trans (((Cert.KernelIdeal.Body.dats m 0 c).arrAt_in 1 rfl _).trans ((Cert.KernelIdeal.Body.A_eq m c 1).trans (Cert.KernelIdeal.Gen.V_main_arg1 m c))),
      ((h c).1 2).trans (((Cert.KernelIdeal.Body.dats m 0 c).arrAt_in 2 rfl _).trans ((Cert.KernelIdeal.Body.A_eq m c 2).trans (Cert.KernelIdeal.Gen.V_main_arg2 m c))),
      ((h c).1 3).trans (((Cert.KernelIdeal.Body.dats m 0 c).arrAt_in 3 rfl _).trans ((Cert.KernelIdeal.Body.A_eq m c 3).trans (Cert.KernelIdeal.Gen.V_main_arg3 m c))),
      ((h c).1 4).trans (((Cert.KernelIdeal.Body.dats m 0 c).arrAt_in 4 rfl _).trans ((Cert.KernelIdeal.Body.A_eq m c 4).trans (Cert.KernelIdeal.Gen.V_main_arg4 m c))),
      ((h c).1 5).trans (((Cert.KernelIdeal.Body.dats m 0 c).arrAt_in 5 rfl _).trans ((Cert.KernelIdeal.Body.A_eq m c 5).trans (Cert.KernelIdeal.Gen.V_main_arg5 m c)))⟩)
    (Cert.KernelIdeal.Body.run_main (F := Ideal) m ρ)

theorem frame_k : Cert.frame_Kernel (hKernel := Cert.Kernel.Gen.facts) (hPre_finite_inputs := Cert.Pre_finite_inputs.Gen.facts) :=
  fun m ρ _ => Cert.Kernel.Body.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Body.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.ReferenceIdeal.ValueP.run (F := Ideal) m ρ)

theorem preserves : Cert.preserves_Kernel_KernelIdeal := trivial

/-- From memories agreeing on the arguments both programs end at one result: the reference's grouping of the products and
    the kernel's agree because every entry is real. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.Body.Gk m c, kernel_run m ρ, ?_⟩
  refine (θ_run (Cert.ReferenceIdeal.defs (F := Ideal)) _ _).mono (fun _ h c => ⟨(h c).1.trans ?_, (h c).2⟩)
    (Cert.ReferenceIdeal.ValueP.run (F := Ideal) m' ρ')
  obtain ⟨h0, h1, h2, h3, h4, h5⟩ := Cert.Finite.fin_of_fn _ _ _ _ _ _ (hpre c)
  obtain ⟨a0, a1, a2, a3, a4, a5⟩ := hagree c
  refine (Cert.RefSide.ref_out m' c).trans ?_
  rw [a0, a1, a2, a3, a4, a5]
  exact refOut_eq_kerOut _ _ _ _ _ _ (fun i => h1 i) (fun i => h0 i) (fun i => h2 i) (fun j => h3 _) (fun i => h4 i)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
